-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "on_minus_off" .f32 0x3F6147AE#32 ((236223195 / 268435456 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S4194304 : Shape := ⟨1, ![4194304]⟩
abbrev S4194304x3 : Shape := ⟨2, ![4194304, 3]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel
  bcast_S_S4194304x3 : S_.BroadcastsInDim S4194304x3 (![] : Fin 0 → Fin S4194304x3.rank)
  reducesTo_S4194304x3_S_d0_1 : S4194304x3.ReducesTo [0, 1] S_
  reducesTo_S_S_d : S_.ReducesTo [] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_arg1 : IVec S4194304 32) (main_v12 : IVec S_ 1) (main_v14 : IVec S4194304 1) (main_v15 : IVec S4194304 32) : IVec S_ 1 :=
  let main_v16 : IVec S4194304 1 := cmpi .slt main_arg1 main_v15
  let main_v17 : IVec S4194304 1 := andi main_v14 main_v16
  let main_c_6 : IVec S_ 1 := constantI S_ 1 1#1
  let main_v18 : IVec S_ 1 := (fun x v => Host.reduce IntOp.andi x v reducesTo_S4194304_S_d0 h_S_) main_v17 main_c_6
  let main_v19 : IVec S_ 1 := andi main_v12 main_v18
  main_v19

def fn {F : FTy → Type} [FloatOps F] (main_arg0 : FVec F S4194304x6 .f32) (main_arg1 : IVec S4194304 32) (main_arg2 : FVec F S4194304x3 .f32) (main_arg3 : FVec F S_ .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  let main_v4 : FVec F S4194304x3 .f32 := Host.absf main_arg2
  let main_cst_0 : FVec F S_ .f32 := constant S_ .f32 0x7F800000#32
  let main_v5 : FVec F S4194304x3 .f32 := broadcastInDim S4194304x3 ![] bcast_S_S4194304x3 main_cst_0
  let main_v6 : IVec S4194304x3 1 := cmpf .olt main_v4 main_v5
  let main_c_1 : IVec S_ 1 := constantI S_ 1 1#1
  let main_v7 : IVec S_ 1 := (fun x v => Host.reduce IntOp.andi x v reducesTo_S4194304x3_S_d0_1 h_S_) main_v6 main_c_1
  let main_v8 : IVec S_ 1 := andi main_v3 main_v7
  let main_v9 : FVec F S_ .f32 := Host.absf main_arg3
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S4194304 32 := broadcastInDim S4194304 ![] bcast_S_S4194304 main_c_4
  let main_v14 : IVec S4194304 1 := cmpi .sge main_arg1 main_v13
  let main_c_5 : IVec S_ 32 := constantI S_ 32 6#32
  let main_v15 : IVec S4194304 32 := broadcastInDim S4194304 ![] bcast_S_S4194304 main_c_5
  fn_part1 (F := F) main_arg1 main_v12 main_v14 main_v15
-- ==== Kernel.lean ====
abbrev S4194304x6 : Shape := ⟨2, ![4194304, 6]⟩
abbrev S4194304 : Shape := ⟨1, ![4194304]⟩
abbrev S4194304x3 : Shape := ⟨2, ![4194304, 3]⟩
abbrev S_ : Shape := ⟨0, ![]⟩
abbrev S6x3 : Shape := ⟨2, ![6, 3]⟩
abbrev S4194304x1 : Shape := ⟨2, ![4194304, 1]⟩
abbrev S2x8x128 : Shape := ⟨3, ![2, 8, 128]⟩
abbrev S8192x6 : Shape := ⟨2, ![8192, 6]⟩
abbrev S8192x1 : Shape := ⟨2, ![8192, 1]⟩
abbrev S8192x3 : Shape := ⟨2, ![8192, 3]⟩
abbrev S1x8x128 : Shape := ⟨3, ![1, 8, 128]⟩
abbrev S8x128 : Shape := ⟨2, ![8, 128]⟩
abbrev S6x8192 : Shape := ⟨2, ![6, 8192]⟩
abbrev S1x8192 : Shape := ⟨2, ![1, 8192]⟩
abbrev S3x8192 : Shape := ⟨2, ![3, 8192]⟩
abbrev S8192 : Shape := ⟨1, ![8192]⟩
abbrev S1 : Shape := ⟨1, ![1]⟩
abbrev S1x1 : Shape := ⟨2, ![1, 1]⟩
abbrev S6x1 : Shape := ⟨2, ![6, 1]⟩
abbrev S1x1x1 : Shape := ⟨3, ![1, 1, 1]⟩

abbrev nBuf : Space → Nat
  | .hbm => 30
  | .vmem => 13
  | .smem => 0
  | _ => 0

abbrev bufTy : (tb : Table) → Fin (tcTables nBuf tb) → BufTy
  | .hbm, ⟨0, _⟩ => ⟨S4194304x6, .f32⟩
  | .hbm, ⟨1, _⟩ => ⟨S4194304, .i32⟩
  | .hbm, ⟨2, _⟩ => ⟨S4194304x3, .f32⟩
  | .hbm, ⟨3, _⟩ => ⟨S_, .f32⟩
  | .hbm, ⟨4, _⟩ => ⟨S6x3, .f32⟩
  | .hbm, ⟨5, _⟩ => ⟨S4194304x1, .i32⟩
  | .hbm, ⟨6, _⟩ => ⟨S2x8x128, .f32⟩
  | .hbm, ⟨7, _⟩ => ⟨S2x8x128, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S_, .f32⟩
  | .hbm, ⟨13, _⟩ => ⟨S1x1x1, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S6x3, .f32⟩
  | .local _ .vmem, ⟨1, _⟩ => ⟨S8192x6, .f32⟩
  | .local _ .vmem, ⟨2, _⟩ => ⟨S8192x6, .f32⟩
  | .local _ .vmem, ⟨3, _⟩ => ⟨S8192x1, .i32⟩
  | .local _ .vmem, ⟨4, _⟩ => ⟨S8192x1, .i32⟩
  | .local _ .vmem, ⟨5, _⟩ => ⟨S8192x3, .f32⟩
  | .local _ .vmem, ⟨6, _⟩ => ⟨S8192x3, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S8x128, .f32⟩
  | .local _ .vmem, ⟨12, _⟩ => ⟨S8x128, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v78 : BitVec 1 := Scalar.cmpi .eq arg1 c255_i32
  let v79 : BitVec 32 := Scalar.extui v78
  let c0_i32_28 : BitVec 32 := 0#32
  let v80 : BitVec 1 := Scalar.cmpi .ne v79 c0_i32_28
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S6x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4194304_S4194304x1 : S4194304.ShapeCasts S4194304x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x6_S8192x6_0_0 : ∀ a, (![0, 0] : Fin 2 → Nat) a + S8192x6.size a ≤ S8192x6.size a
  h_S8192x6 : 0 < S8192x6.numel
  transposes_S8192x6_p1_0_S6x8192 : S8192x6.Transposes [1, 0] S6x8192
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  transposes_S8192x1_p1_0_S1x8192 : S8192x1.Transposes [1, 0] S1x8192
  inb_S8192x3_S8192x3_0_0 : ∀ a, (![0, 0] : Fin 2 → Nat) a + S8192x3.size a ≤ S8192x3.size a
  h_S8192x3 : 0 < S8192x3.numel
  transposes_S8192x3_p1_0_S3x8192 : S8192x3.Transposes [1, 0] S3x8192
  iota_S6x8192_d0_w32 : S6x8192.Iotas .tc 32 [0]
  broadcasts_S1x8192_S6x8192 : S1x8192.Broadcasts S6x8192
  natLt_1_32 : 1 < 32
  reduces_S6x8192_S8192 : S6x8192.Reduces [0] S8192
  shapeCasts_S8192_S1x8192 : S8192.ShapeCasts S1x8192
  reduces_S1x8192_S1 : S1x8192.Reduces [1] S1
  shapeCasts_S1_S1x1 : S1.ShapeCasts S1x1
  inb_S6x3_S6x3_0_0 : ∀ a, (![0, 0] : Fin 2 → Nat) a + S6x3.size a ≤ S6x3.size a
  h_S6x3 : 0 < S6x3.numel
  slices_S6x3_o0_0_S6x1 : S6x3.Slices ![0, 0] S6x1
  broadcasts_S6x1_S6x8192 : S6x1.Broadcasts S6x8192
  slices_S6x3_o0_1_S6x1 : S6x3.Slices ![0, 1] S6x1
  slices_S6x3_o0_2_S6x1 : S6x3.Slices ![0, 2] S6x1
  concatenates_S1x8192_S1x8192_S1x8192_S3x8192_d0 : Shape.Concatenates [S1x8192, S1x8192, S1x8192] S3x8192 0
  reduces_S3x8192_S8192 : S3x8192.Reduces [0] S8192
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S6x3.size a ≤ S6x3.size a
  hwx0_0 : ∀ i : grid0.Coords, EltTy.bits .f32 = 32 ∨ (Rect.block (s := S6x3) S6x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x6.size a ≤ S4194304x6.size a
  hwx0_1 : ∀ i : grid0.Coords, EltTy.bits .f32 = 32 ∨ (Rect.block (s := S4194304x6) S8192x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S4194304x1.size a
  hwx0_2 : ∀ i : grid0.Coords, EltTy.bits .i32 = 32 ∨ (Rect.block (s := S4194304x1) S8192x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x3.size a ≤ S4194304x3.size a
  hwx0_3 : ∀ i : grid0.Coords, EltTy.bits .f32 = 32 ∨ (Rect.block (s := S4194304x3) S8192x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

abbrev win0_0 : Pipeline.Window sig grid0 :=
  Pipeline.Window.ofSpec (Memref.whole main_cst) S6x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8192x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4194304x6 : Shape := ⟨2, ![4194304, 6]⟩
abbrev S4194304 : Shape := ⟨1, ![4194304]⟩
abbrev S4194304x3 : Shape := ⟨2, ![4194304, 3]⟩
abbrev S_ : Shape := ⟨0, ![]⟩
abbrev S6x3 : Shape := ⟨2, ![6, 3]⟩
abbrev S4194304x1 : Shape := ⟨2, ![4194304, 1]⟩
abbrev S4194304x2 : Shape := ⟨2, ![4194304, 2]⟩

abbrev nBuf : Space → Nat
  | .hbm => 82
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S4194304, .i32⟩
  | .hbm, ⟨2, _⟩ => ⟨S4194304x3, .f32⟩
  | .hbm, ⟨3, _⟩ => ⟨S_, .f32⟩
  | .hbm, ⟨4, _⟩ => ⟨S6x3, .f32⟩
  | .hbm, ⟨5, _⟩ => ⟨S_, .f32⟩
  | .hbm, ⟨6, _⟩ => ⟨S4194304x6, .f32⟩
  | .hbm, ⟨7, _⟩ => ⟨S4194304, .i32⟩
  | .hbm, ⟨8, _⟩ => ⟨S_, .i32⟩
  | .hbm, ⟨9, _⟩ => ⟨S4194304, .i32⟩
  | .hbm, ⟨10, _⟩ => ⟨S4194304, .i1⟩
  | .hbm, ⟨11, _⟩ => ⟨S_, .i32⟩
  | .hbm, ⟨12, _⟩ => ⟨S4194304, .i32⟩
  | .hbm, ⟨13, _⟩ => ⟨S4194304, .i32⟩
  | .hbm, ⟨14, _⟩ => ⟨S4194304, .i32⟩
  | .hbm, ⟨15, _⟩ => ⟨S_, .i32⟩
  | .hbm, ⟨16, _⟩ => ⟨S4194304, .i32⟩
  | .hbm, ⟨17, _⟩ => ⟨S4194304, .i1⟩
  | .hbm, ⟨18, _⟩ => ⟨S_, .i32⟩
  | .hbm, ⟨19, _⟩ => ⟨S4194304, .i32⟩
  | .hbm, ⟨20, _⟩ => ⟨S4194304, .i32⟩
  | .hbm, ⟨21, _⟩ => ⟨S4194304, .i32⟩
  | .hbm, ⟨22, _⟩ => ⟨S4194304x1, .i32⟩
  | .hbm, ⟨23, _⟩ => ⟨S4194304x1, .i32⟩
  | .hbm, ⟨24, _⟩ => ⟨S4194304x2, .i32⟩
  | .hbm, ⟨25, _⟩ => ⟨S_, .f32⟩
  | .hbm, ⟨26, _⟩ => ⟨S4194304, .f32⟩
  | .hbm, ⟨27, _⟩ => ⟨S4194304x6, .f32⟩
  | .hbm, ⟨28, _⟩ => ⟨S_, .f32⟩
  | .hbm, ⟨29, _⟩ => ⟨S4194304, .f32⟩
  | .hbm, ⟨30, _⟩ => ⟨S_, .f32⟩
  | .hbm, ⟨31, _⟩ => ⟨S4194304, .f32⟩
  | .hbm, ⟨32, _⟩ => ⟨S4194304, .f32⟩
  | .hbm, ⟨33, _⟩ => ⟨S4194304x1, .f32⟩
  | .hbm, ⟨34, _⟩ => ⟨S4194304x6, .f32⟩
  | .hbm, ⟨35, _⟩ => ⟨S4194304x6, .f32⟩
  | .hbm, ⟨36, _⟩ => ⟨S4194304x6, .f32⟩
  | .hbm, ⟨37, _⟩ => ⟨S_, .f32⟩
  | .hbm, ⟨38, _⟩ => ⟨S4194304, .f32⟩
  | .hbm, ⟨39, _⟩ => ⟨S4194304x1, .f32⟩
  | .hbm, ⟨40, _⟩ => ⟨S4194304x1, .f32⟩
  | .hbm, ⟨41, _⟩ => ⟨S4194304x6, .f32⟩
  | .hbm, ⟨42, _⟩ => ⟨S4194304x6, .f32⟩
  | .hbm, ⟨43, _⟩ => ⟨S4194304x6, .f32⟩
  | .hbm, ⟨44, _⟩ => ⟨S_, .f32⟩
  | .hbm, ⟨45, _⟩ => ⟨S4194304x6, .f32⟩
  | .hbm, ⟨46, _⟩ => ⟨S4194304x6, .f32⟩
  | .hbm, ⟨47, _⟩ => ⟨S_, .f32⟩
  | .hbm, ⟨48, _⟩ => ⟨S4194304x6, .f32⟩
  | .hbm, ⟨49, _⟩ => ⟨S4194304x6, .f32⟩
  | .hbm, ⟨50, _⟩ => ⟨S4194304x6, .f32⟩
  | .hbm, ⟨51, _⟩ => ⟨S4194304x6, .f32⟩
  | .hbm, ⟨52, _⟩ => ⟨S4194304x6, .f32⟩
  | .hbm, ⟨53, _⟩ => ⟨S_, .f32⟩
  | .hbm, ⟨54, _⟩ => ⟨S4194304, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .i32⟩
  | .hbm, ⟨60, _⟩ => ⟨S4194304, .i32⟩
  | .hbm, ⟨61, _⟩ => ⟨S4194304, .i1⟩
  | .hbm, ⟨62, _⟩ => ⟨S_, .i32⟩
  | .hbm, ⟨63, _⟩ => ⟨S4194304, .i32⟩
  | .hbm, ⟨64, _⟩ => ⟨S4194304, .i32⟩
  | .hbm, ⟨65, _⟩ => ⟨S4194304, .i32⟩
  | .hbm, ⟨66, _⟩ => ⟨S4194304x1, .i32⟩
  | .hbm, ⟨67, _⟩ => ⟨S4194304x3, .f32⟩
  | .hbm, ⟨68, _⟩ => ⟨S4194304x3, .f32⟩
  | .hbm, ⟨69, _⟩ => ⟨S4194304x3, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_c_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_call0_cst_0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_cst_1 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_v17 : Ref sig .tc := ⟨.hbm, 42, rfl⟩
abbrev main_v18 : Ref sig .tc := ⟨.hbm, 43, rfl⟩
abbrev main_cst_5 : Ref sig .tc := ⟨.hbm, 44, rfl⟩
abbrev main_v19 : Ref sig .tc := ⟨.hbm, 45, rfl⟩
abbrev main_v20 : Ref sig .tc := ⟨.hbm, 46, rfl⟩
abbrev main_cst_6 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_7 : Ref sig .tc := ⟨.hbm, 53, rfl⟩
abbrev main_v26 : Ref sig .tc := ⟨.hbm, 54, rfl⟩
abbrev main_cst_8 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev main_c_10 : Ref sig .tc := ⟨.hbm, 59, rfl⟩
abbrev main_v29 : Ref sig .tc := ⟨.hbm, 60, rfl⟩
abbrev main_v30 : Ref sig .tc := ⟨.hbm, 61, rfl⟩
abbrev main_c_11 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_12 : Ref sig .tc := ⟨.hbm, 70, rfl⟩
abbrev main_v38 : Ref sig .tc := ⟨.hbm, 71, rfl⟩
abbrev main_cst_13 : Ref sig .tc := ⟨.hbm, 72, rfl⟩
abbrev main_v39 : Ref sig .tc := ⟨.hbm, 73, rfl⟩
abbrev main_cst_14 : Ref sig .tc := ⟨.hbm, 74, rfl⟩
abbrev main_v40 : Ref sig .tc := ⟨.hbm, 75, rfl⟩
abbrev main_cst_15 : Ref sig .tc := ⟨.hbm, 76, rfl⟩
abbrev main_v41 : Ref sig .tc := ⟨.hbm, 77, rfl⟩
abbrev main_v42 : Ref sig .tc := ⟨.hbm, 78, rfl⟩
abbrev main_cst_16 : Ref sig .tc := ⟨.hbm, 79, rfl⟩
abbrev main_v43 : Ref sig .tc := ⟨.hbm, 80, rfl⟩
abbrev main_v44 : Ref sig .tc := ⟨.hbm, 81, rfl⟩

abbrev nD : Nat := 1
abbrev τ : Topo := Topo.v7x

variable {F : FTy → Type} [FloatOps F]

class Facts₀ : Prop where
  bcast_S_S4194304x6 : S_.BroadcastsInDim S4194304x6 (![] : Fin 0 → Fin S4194304x6.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  reducesTo_S4194304x6_S4194304_d1 : S4194304x6.ReducesTo [1] S4194304
  h_S_ : 0 < S_.numel
  bcast_S4194304x1_S4194304x6_0_1 : S4194304x1.BroadcastsInDim S4194304x6 (![0, 1] : Fin 2 → Fin S4194304x6.rank)
  reducesTo_S4194304_S_d0 : S4194304.ReducesTo [0] S_
  reducesTo_S4194304x3_S_d0_1 : S4194304x3.ReducesTo [0, 1] S_
  scatter_S4194304x6_S4194304x2_S4194304_n_01_01_1_wf : ScatterDims.WF S4194304x6 S4194304x2 S4194304 [] [0, 1] [0, 1] 1
  gather_S6x3_S4194304x1_S4194304x3_1_0_n_n_0_1_13_wf : GatherDims.WF S6x3 S4194304x1 S4194304x3 [1] [0] [] [0] [] 1 ![1, 3]

variable [Facts₀]

def scatter_S4194304x6_S4194304x2_S4194304_n_01_01_1 : ScatterDims S4194304x6 S4194304x2 S4194304 where
  updateWindowDims := []
  insertedWindowDims := [0, 1]
  scatterDimsToOperandDims := [0, 1]
  indexVectorDim := 1
  wf := scatter_S4194304x6_S4194304x2_S4194304_n_01_01_1_wf
def gather_S6x3_S4194304x1_S4194304x3_1_0_n_n_0_1_13 : GatherDims S6x3 S4194304x1 S4194304x3 where
  offsetDims := [1]
  collapsedSliceDims := [0]
  operandBatchingDims := []
  startIndicesBatchingDims := []
  startIndexMap := [0]
  indexVectorDim := 1
  sliceSizes := ![1, 3]
  wf := gather_S6x3_S4194304x1_S4194304x3_1_0_n_n_0_1_13_wf

class Facts : Prop extends Facts₀ where

variable [Facts]
-- ==== Proof.KPieces.lean ====
/-
  What each control case of the kernel body leaves in its two accumulators and, at a half's last point, in its two
  output blocks, as the body's arithmetic applied to the point's input blocks and to what the accumulators held.
-/
import proofs.«430152_j8701603742268_3_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- The zero offset of a rank-two block, as the constant function. -/
private theorem hz2 : (![0, 0] : Fin 2 → Nat) = fun _ => 0 := funext fun a => by fin_cases a <;> rfl

/-- The zero offset of a rank-three block, as the constant function. -/
private theorem hz3 : (![0, 0, 0] : Fin 3 → Nat) = fun _ => 0 := funext fun a => by fin_cases a <;> rfl

/-- At a half's first point the focal accumulator ends at zero plus this tile's focal sum. -/
theorem sout0_A_0_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S6x3 .f32) (x1 : Vec F S8192x6 .f32) (x2 : Vec F S8192x1 .i32) (x3 : Vec F S8192x3 .f32) :
    sout0_A_0 (F := F) c i arg2 harg2 arg3 harg3 arg4 harg4 arg5 harg5 arg6 harg6 arg7 harg7 arg8 harg8 arg9 harg9 hc0 hc1 x0 x1 x2 x3 = k0_pay6 (k0_pay5 x1 x2) k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x128) hz2]
  simp only [View.readAt_eq_ld, harg3.read_unread, harg4.read_unread, View.ld_unit_zero (S := S8192x6) hz2, View.ld_unit_zero (S := S8192x1) hz2, View.readCov_unit_zero (S := S8x128) _ hz2]

/-- At a half's first point the squared-error accumulator ends at zero plus this tile's sum. -/
theorem sout0_A_1_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S6x3 .f32) (x1 : Vec F S8192x6 .f32) (x2 : Vec F S8192x1 .i32) (x3 : Vec F S8192x3 .f32) :
    sout0_A_1 (F := F) c i arg2 harg2 arg3 harg3 arg4 harg4 arg5 harg5 arg6 harg6 arg7 harg7 arg8 harg8 arg9 harg9 hc0 hc1 x0 x1 x2 x3 = k0_pay7 (k0_pay3 x3) (k0_pay4 x2) x0 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S8x128) hz2]
  simp only [View.readAt_eq_ld, harg5.read_unread, harg4.read_unread, harg2.read_unread, View.ld_unit_zero (S := S8192x3) hz2, View.ld_unit_zero (S := S8192x1) hz2, View.ld_unit_zero (S := S6x3) hz2, View.readCov_unit_zero (S := S8x128) _ hz2]

/-- At an inner point the focal accumulator ends at what the point before left plus this tile's focal sum. -/
theorem sout0_B_0_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S6x3 .f32) (x1 : Vec F S8192x6 .f32) (x2 : Vec F S8192x1 .i32) (x3 : Vec F S8192x3 .f32) (xs0 : Vec F S8x128 .f32) (xs1 : Vec F S8x128 .f32) :
    sout0_B_0 (F := F) c i arg2 harg2 arg3 harg3 arg4 harg4 arg5 harg5 arg6 harg6 arg7 harg7 arg8 harg8 arg9 harg9 hc0 hc1 x0 x1 x2 x3 xs0 xs1 = k0_pay6 (k0_pay5 x1 x2) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S8x128) hz2]
  simp only [View.readAt_eq_ld, harg3.read_unread, harg4.read_unread, View.ld_unit_zero (S := S8192x6) hz2, View.ld_unit_zero (S := S8192x1) hz2, harg8.read_unread, View.ld_unit_zero (S := S8x128) hz2]

/-- At an inner point the squared-error accumulator ends at what the point before left plus this tile's sum. -/
theorem sout0_B_1_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S6x3 .f32) (x1 : Vec F S8192x6 .f32) (x2 : Vec F S8192x1 .i32) (x3 : Vec F S8192x3 .f32) (xs0 : Vec F S8x128 .f32) (xs1 : Vec F S8x128 .f32) :
    sout0_B_1 (F := F) c i arg2 harg2 arg3 harg3 arg4 harg4 arg5 harg5 arg6 harg6 arg7 harg7 arg8 harg8 arg9 harg9 hc0 hc1 x0 x1 x2 x3 xs0 xs1 = k0_pay7 (k0_pay3 x3) (k0_pay4 x2) x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S8x128) hz2]
  simp only [View.readAt_eq_ld, harg5.read_unread, harg4.read_unread, harg2.read_unread, View.ld_unit_zero (S := S8192x3) hz2, View.ld_unit_zero (S := S8192x1) hz2, View.ld_unit_zero (S := S6x3) hz2, harg9.read_unread, View.ld_unit_zero (S := S8x128) hz2]

/-- At a half's last point the focal accumulator is updated as at an inner point. -/
theorem sout0_C_0_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S6x3 .f32) (x1 : Vec F S8192x6 .f32) (x2 : Vec F S8192x1 .i32) (x3 : Vec F S8192x3 .f32) (xs0 : Vec F S8x128 .f32) (xs1 : Vec F S8x128 .f32) :
    sout0_C_0 (F := F) c i arg2 harg2 arg3 harg3 arg4 harg4 arg5 harg5 arg6 harg6 arg7 harg7 arg8 harg8 arg9 harg9 hc0 hc1 x0 x1 x2 x3 xs0 xs1 = k0_pay6 (k0_pay5 x1 x2) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S8x128) hz2]
  simp only [View.readAt_eq_ld, harg3.read_unread, harg4.read_unread, View.ld_unit_zero (S := S8192x6) hz2, View.ld_unit_zero (S := S8192x1) hz2, harg8.read_unread, View.ld_unit_zero (S := S8x128) hz2]

/-- At a half's last point the squared-error accumulator is updated as at an inner point. -/
theorem sout0_C_1_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S6x3 .f32) (x1 : Vec F S8192x6 .f32) (x2 : Vec F S8192x1 .i32) (x3 : Vec F S8192x3 .f32) (xs0 : Vec F S8x128 .f32) (xs1 : Vec F S8x128 .f32) :
    sout0_C_1 (F := F) c i arg2 harg2 arg3 harg3 arg4 harg4 arg5 harg5 arg6 harg6 arg7 harg7 arg8 harg8 arg9 harg9 hc0 hc1 x0 x1 x2 x3 xs0 xs1 = k0_pay7 (k0_pay3 x3) (k0_pay4 x2) x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S8x128) hz2]
  simp only [View.readAt_eq_ld, harg5.read_unread, harg4.read_unread, harg2.read_unread, View.ld_unit_zero (S := S8192x3) hz2, View.ld_unit_zero (S := S8192x1) hz2, View.ld_unit_zero (S := S6x3) hz2, harg9.read_unread, View.ld_unit_zero (S := S8x128) hz2]

/-- At a half's last point the first output block receives the updated focal accumulator. -/
theorem out0_C_4_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S6x3 .f32) (x1 : Vec F S8192x6 .f32) (x2 : Vec F S8192x1 .i32) (x3 : Vec F S8192x3 .f32) (xs0 : Vec F S8x128 .f32) (xs1 : Vec F S8x128 .f32) :
    out0_C_4 (F := F) c i arg2 harg2 arg3 harg3 arg4 harg4 arg5 harg5 arg6 harg6 arg7 harg7 arg8 harg8 arg9 harg9 hc0 hc1 x0 x1 x2 x3 xs0 xs1 = k0_pay8 (k0_pay6 (k0_pay5 x1 x2) xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x8x128) hz3]
  simp only [View.readAt_eq_ld, harg3.read_unread, harg4.read_unread, View.ld_unit_zero (S := S8192x6) hz2, View.ld_unit_zero (S := S8192x1) hz2, harg8.read_unread, View.ld_unit_zero (S := S8x128) hz2, View.readCov_unit_zero (S := S8x128) _ hz2]

/-- At a half's last point the second output block receives the updated squared-error accumulator. -/
theorem out0_C_5_eq (c : Dev nD) (i : grid0.Coords) (arg2 : Memref sig .tc .vmem S6x3 .f32) (harg2 : arg2.IsWhole) (arg3 : Memref sig .tc .vmem S8192x6 .f32) (harg3 : arg3.IsWhole) (arg4 : Memref sig .tc .vmem S8192x1 .i32) (harg4 : arg4.IsWhole) (arg5 : Memref sig .tc .vmem S8192x3 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S6x3 .f32) (x1 : Vec F S8192x6 .f32) (x2 : Vec F S8192x1 .i32) (x3 : Vec F S8192x3 .f32) (xs0 : Vec F S8x128 .f32) (xs1 : Vec F S8x128 .f32) :
    out0_C_5 (F := F) c i arg2 harg2 arg3 harg3 arg4 harg4 arg5 harg5 arg6 harg6 arg7 harg7 arg8 harg8 arg9 harg9 hc0 hc1 x0 x1 x2 x3 xs0 xs1 = k0_pay9 (k0_pay7 (k0_pay3 x3) (k0_pay4 x2) x0 xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x8x128) hz3]
  simp only [View.readAt_eq_ld, harg5.read_unread, harg4.read_unread, harg2.read_unread, View.ld_unit_zero (S := S8192x3) hz2, View.ld_unit_zero (S := S8192x1) hz2, View.ld_unit_zero (S := S6x3) hz2, harg9.read_unread, View.ld_unit_zero (S := S8x128) hz2, View.readCov_unit_zero (S := S8x128) _ hz2]

end Cert.KernelIdeal.Pieces

end
-- ==== Proof.Spec.lean ====
/-
  The loss both programs compute, written once over the extended reals.

  For a row of six logits `x` and a label word `l`:
    * `lsm x k` is the log-softmax, `(x k - max x) - log (∑ exp (x k' - max x))`;
    * `tgt l k` is the smoothed target, `onT` at the labelled class and `offT` elsewhere;
    * `focalElt x l k = -(1 - exp (lsm x k))² · tgt l k · lsm x k` (focusing exponent 2);
    * `vadElt T v l j = (v j - T[l, j])²`, the table row of an out-of-range label read as 0.
  The two totals sum these over all 4194304 rows; the three scalar results are quotients and a weighted sum of the totals.
-/
import Idealize.ShloMosaic.PureOps.Ideal
import Idealize.ShloMosaic.Lib.ValueIdx

noncomputable section

namespace Cert.Loss

open Idealize.ShloMosaic Idealize.ShloMosaic.ValueIdx

/-- The shapes of the four arguments and of the class table. -/
abbrev Sx : Shape := ⟨2, ![4194304, 6]⟩
abbrev Sl : Shape := ⟨1, ![4194304]⟩
abbrev Sv : Shape := ⟨2, ![4194304, 3]⟩
abbrev S0 : Shape := ⟨0, ![]⟩
abbrev St : Shape := ⟨2, ![6, 3]⟩

/-- The float words the formulas carry, never evaluated except where two sides spell a value differently. -/
def negInf : EReal := Ideal.ofBits .f32 0xFF800000#32
def oneW : EReal := Ideal.ofBits .f32 0x3F800000#32
def offT : EReal := Ideal.ofBits .f32 0x3CA3D70A#32
def onT : EReal := Ideal.ofBits .f32 0x3F666666#32

/-- The largest of a row's six logits (a fold of `max` from -∞). -/
def rowMax (x : Fin 6 → EReal) : EReal := (Finset.univ : Finset (Fin 6)).fold max negInf x

/-- Log-softmax of a row at class `k`. -/
def lsm (x : Fin 6 → EReal) (k : Fin 6) : EReal :=
  (x k - rowMax x) - Ideal.log (∑ k' : Fin 6, Ideal.exp (x k' - rowMax x))

/-- The smoothed target of class `k` for the label word `l`. -/
def tgt (l : BitVec 32) (k : Fin 6) : EReal := if l = BitVec.ofNat 32 k.val then onT else offT

/-- One class's focal term of a row. -/
def focalElt (x : Fin 6 → EReal) (l : BitVec 32) (k : Fin 6) : EReal :=
  (-((oneW - Ideal.exp (lsm x k)) * (oneW - Ideal.exp (lsm x k)))) * tgt l k * lsm x k

/-- Entry `j` of the table row a label word selects; 0 for a word that names no class. -/
def tblAt (T : St.Idx → EReal) (l : BitVec 32) (j : Fin 3) : EReal :=
  if h : l.toNat < 6 then T (ix2 ⟨l.toNat, h⟩ j) else 0

/-- One channel's squared error of a row against its label's table row. -/
def vadElt (T : St.Idx → EReal) (v : Fin 3 → EReal) (l : BitVec 32) (j : Fin 3) : EReal :=
  (v j - tblAt T l j) * (v j - tblAt T l j)

/-- The focal terms summed over every row and class. -/
def totalFocal (X : Sx.Idx → EReal) (L : Sl.Idx → BitVec 32) : EReal :=
  ∑ r : Fin 4194304, ∑ k : Fin 6, focalElt (fun k' => X (ix2 r k')) (L (ix1 r)) k

/-- The squared errors summed over every row and channel. -/
def totalVad (T : St.Idx → EReal) (V : Sv.Idx → EReal) (L : Sl.Idx → BitVec 32) : EReal :=
  ∑ r : Fin 4194304, ∑ j : Fin 3, vadElt T (fun j' => V (ix2 r j')) (L (ix1 r)) j

/-- The classification loss: the focal total over the number of rows. -/
def clsOf (tf : EReal) : EReal := Ideal.div tf (Ideal.ofBits .f32 0x4A800000#32)
/-- The regression loss: the squared-error total over rows × channels. -/
def vadOf (tv : EReal) : EReal := Ideal.div tv (Ideal.ofBits .f32 0x4B400000#32)
/-- The weighted total of the two losses and the given third one. -/
def totalOf (tf tv mc : EReal) : EReal :=
  (Ideal.ofBits .f32 0x3F800000#32 * clsOf tf + Ideal.ofBits .f32 0x3F000000#32 * vadOf tv)
    + Ideal.ofBits .f32 0x3E99999A#32 * mc

/-- The class table's eighteen words, row by row. -/
abbrev litT : Fin 18 → BitVec 32 := fun
  | 0 => 0x3F75C28F#32 | 1 => 0x3F25E354#32 | 2 => 0x3F16872B#32 | 3 => 0xBF656042#32 | 4 => 0xBED91687#32 | 5 => 0xBF2C0831#32 | 6 => 0xBD7DF3B6#32 | 7 => 0xBF21CAC1#32
  | 8 => 0xBE926E98#32 | 9 => 0xBF2A7EFA#32 | 10 => 0x3F3AE148#32 | 11 => 0x3EA0C49C#32 | 12 => 0x3F59999A#32 | 13 => 0x3F400000#32 | 14 => 0x3EE66666#32 | 15 => 0xBF000000#32
  | 16 => 0x3F19999A#32 | 17 => 0xBE4CCCCD#32
  | _ => 0#32

/-- The class table as an array of extended reals. -/
def vadTable : St.Idx → EReal := fun i => Ideal.ofBits .f32 (litT (St.rowMajor i))

end Cert.Loss

end
-- ==== Proof.KPayload.lean ====
/-
  The kernel body's arithmetic read at the extended reals: the two zero resets, the two accumulator updates (what the
  accumulator held plus one tile's total), the tile totals as double sums of the per-row terms of the loss, and the
  copies into the output blocks.
-/
import proofs.«430152_j8701603742268_3_alg».proof.Proof.Gen.KernelIdeal.Skeleton
import proofs.«430152_j8701603742268_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen

/-- The focal accumulator's reset value is zero everywhere. -/
theorem pay1_apply (y : S8x128.Idx) : k0_pay1 (F := Ideal) y = 0 := by
  unfold k0_pay1
  rw [shapeCast_self]
  exact Ideal.ofBits_zero_f32

/-- The squared-error accumulator's reset value is zero everywhere. -/
theorem pay2_apply (y : S8x128.Idx) : k0_pay2 (F := Ideal) y = 0 := by
  unfold k0_pay2
  rw [shapeCast_self]
  exact Ideal.ofBits_zero_f32

/-- An accumulator update adds the tile's one total to every entry. -/
theorem pay6_apply (v40 : FVec Ideal S1x1 .f32) (v64 : Vec Ideal S8x128 .f32) (y : S8x128.Idx) :
    k0_pay6 v40 v64 y = v64 y + v40 (ix2 0 0) := by
  unfold k0_pay6
  rw [shapeCast_self, shapeCast_self]
  refine congrArg (v64 y + ·) ?_
  refine broadcastTo_apply v40 _ y (ix2 0 0) fun a => ?_
  match a with
  | ⟨0, _⟩ => rfl
  | ⟨1, _⟩ => rfl

/-! ## The pieces of the tile total, each over an arbitrary array -/

/-- Exponential and logarithm act entry by entry. -/
private theorem exp_apply {s : Shape} (a : FVec Ideal s .f32) (i : s.Idx) : exp a i = Ideal.exp (a i) := rfl
private theorem log_apply {s : Shape} (a : FVec Ideal s .f32) (i : s.Idx) : log a i = Ideal.log (a i) := rfl

/-- Putting class `k` back into row index `r` on the class axis gives the entry `(k, r)`. -/
private theorem lift_class (h : S6x8192.Reduces [0] S8192) (r : Fin 8192) (k : Fin 6) : h.lift (ix1 r) k = ix2 k r := by
  funext c
  match c with
  | ⟨0, _⟩ => exact Fin.ext rfl
  | ⟨1, _⟩ => exact Fin.ext rfl

/-- Putting row `r` back on the row axis of a one-row array gives the entry `(u, r)`. -/
private theorem lift_row (h : S1x8192.Reduces [1] S1) (u : Fin 1) (r : Fin 8192) : h.lift (ix1 u) r = ix2 u r := by
  funext c
  match c with
  | ⟨0, _⟩ => exact Fin.ext rfl
  | ⟨1, _⟩ => exact Fin.ext rfl

/-- A sum over the class axis, at row `r`, is the sum of the six entries of that row's column. -/
private theorem colSum (src : FVec Ideal S6x8192 .f32) (h : S6x8192.Reduces [0] S8192) (hφ : FKind.Formats .f32)
    (hacc : (0x00000000#32 : BitVec 32) = FKind.add.neutral .f32 hφ) (r : Fin 8192) :
    multiReduction .add [0] S8192 src 0x00000000#32 h hφ hacc (ix1 r) = ∑ k : Fin 6, src (ix2 k r) :=
  (Ideal.multiReduction_add_single src _ h hφ hacc (ix1 r)).trans
    (Finset.sum_congr rfl fun k _ => congrArg src (lift_class h r k))

/-- A sum over the row axis of a one-row array is the sum of its 8192 entries. -/
private theorem rowSum (src : FVec Ideal S1x8192 .f32) (h : S1x8192.Reduces [1] S1) (hφ : FKind.Formats .f32)
    (hacc : (0x00000000#32 : BitVec 32) = FKind.add.neutral .f32 hφ) (u : Fin 1) :
    multiReduction .add [1] S1 src 0x00000000#32 h hφ hacc (ix1 u) = ∑ r : Fin 8192, src (ix2 u r) :=
  (Ideal.multiReduction_add_single src _ h hφ hacc (ix1 u)).trans
    (Finset.sum_congr rfl fun r _ => congrArg src (lift_row h u r))

/-- A maximum over the class axis, at row `r`, is the loss's row maximum of that row's column. -/
private theorem colMax (src : FVec Ideal S6x8192 .f32) (h : S6x8192.Reduces [0] S8192) (hφ : FKind.Formats .f32)
    (hacc : (0xFF800000#32 : BitVec 32) = FKind.maximumf.neutral .f32 hφ) (r : Fin 8192) :
    multiReduction .maximumf [0] S8192 src 0xFF800000#32 h hφ hacc (ix1 r)
      = Cert.Loss.rowMax (fun k => src (ix2 k r)) := by
  refine (Ideal.multiReduction_maximumf_single src _ h hφ hacc (ix1 r)).trans ?_
  have hf : (src ∘ h.lift (ix1 r)) = fun k : Fin 6 => src (ix2 k r) :=
    funext fun k => congrArg src (lift_class h r k)
  exact congrArg (fun f => (Finset.univ : Finset (Fin 6)).fold max (Ideal.ofBits .f32 0xFF800000#32) f) hf

/-- A per-row quantity, given a unit class axis and copied to all six classes, reads the row's value at every class. -/
private theorem rowBcast_apply (v : FVec Ideal S8192 .f32) (hc : S8192.ShapeCasts S1x8192) (hb : S1x8192.Broadcasts S6x8192)
    (k : Fin 6) (r : Fin 8192) : broadcastTo S6x8192 (shapeCast S1x8192 v hc) hb (ix2 k r) = v (ix1 r) :=
  (broadcastTo_1b_ab_apply _ hb k r).trans (shapeCast_a_1a_apply v hc 0 r)

/-- The logits less their row's maximum. -/
private theorem shifted_apply (a4 : FVec Ideal S6x8192 .f32) (h : S6x8192.Reduces [0] S8192) (hφ : FKind.Formats .f32)
    (hmax : (0xFF800000#32 : BitVec 32) = FKind.maximumf.neutral .f32 hφ)
    (hc : S8192.ShapeCasts S1x8192) (hb : S1x8192.Broadcasts S6x8192) (k : Fin 6) (r : Fin 8192) :
    subf a4 (broadcastTo S6x8192 (shapeCast S1x8192 (multiReduction .maximumf [0] S8192 a4 0xFF800000#32 h hφ hmax) hc) hb) (ix2 k r)
      = a4 (ix2 k r) - Cert.Loss.rowMax (fun k' => a4 (ix2 k' r)) :=
  congrArg (a4 (ix2 k r) - ·) ((rowBcast_apply _ hc hb k r).trans (colMax a4 h hφ hmax r))

/-- An array less the logarithm of its column's summed exponentials. -/
private theorem lessLogSumExp_apply (a22 : FVec Ideal S6x8192 .f32) (h : S6x8192.Reduces [0] S8192) (hφ : FKind.Formats .f32)
    (hadd : (0x00000000#32 : BitVec 32) = FKind.add.neutral .f32 hφ)
    (hc : S8192.ShapeCasts S1x8192) (hb : S1x8192.Broadcasts S6x8192) (k : Fin 6) (r : Fin 8192)
    (f : Fin 6 → EReal) (h22 : ∀ k', a22 (ix2 k' r) = f k') :
    subf a22 (broadcastTo S6x8192 (log (shapeCast S1x8192 (multiReduction .add [0] S8192 (exp a22) 0x00000000#32 h hφ hadd) hc)) hb) (ix2 k r)
      = f k - Ideal.log (∑ k' : Fin 6, Ideal.exp (f k')) := by
  have hs : multiReduction .add [0] S8192 (exp a22) 0x00000000#32 h hφ hadd (ix1 r) = ∑ k' : Fin 6, Ideal.exp (f k') :=
    (colSum (exp a22) h hφ hadd r).trans (Finset.sum_congr rfl fun k' _ => congrArg Ideal.exp (h22 k'))
  have hl : broadcastTo S6x8192 (log (shapeCast S1x8192 (multiReduction .add [0] S8192 (exp a22) 0x00000000#32 h hφ hadd) hc)) hb (ix2 k r)
      = Ideal.log (∑ k' : Fin 6, Ideal.exp (f k')) :=
    (broadcastTo_1b_ab_apply _ hb k r).trans (congrArg Ideal.log ((shapeCast_a_1a_apply _ hc 0 r).trans hs))
  show a22 (ix2 k r) - _ = _
  rw [hl, h22 k]

/-- The log-softmax of a row whose column of the array is `x`. -/
private theorem lsm_apply (a4 : FVec Ideal S6x8192 .f32) (h : S6x8192.Reduces [0] S8192) (hφ : FKind.Formats .f32)
    (hmax : (0xFF800000#32 : BitVec 32) = FKind.maximumf.neutral .f32 hφ)
    (hadd : (0x00000000#32 : BitVec 32) = FKind.add.neutral .f32 hφ)
    (hc : S8192.ShapeCasts S1x8192) (hb : S1x8192.Broadcasts S6x8192) (k : Fin 6) (r : Fin 8192)
    (x : Fin 6 → EReal) (h4 : ∀ k', a4 (ix2 k' r) = x k') :
    subf (subf a4 (broadcastTo S6x8192 (shapeCast S1x8192 (multiReduction .maximumf [0] S8192 a4 0xFF800000#32 h hφ hmax) hc) hb))
        (broadcastTo S6x8192 (log (shapeCast S1x8192 (multiReduction .add [0] S8192
          (exp (subf a4 (broadcastTo S6x8192 (shapeCast S1x8192 (multiReduction .maximumf [0] S8192 a4 0xFF800000#32 h hφ hmax) hc) hb)))
          0x00000000#32 h hφ hadd) hc)) hb) (ix2 k r)
      = Cert.Loss.lsm x k := by
  have hx : (fun k' => a4 (ix2 k' r)) = x := funext h4
  refine (lessLogSumExp_apply _ h hφ hadd hc hb k r (fun k' => x k' - Cert.Loss.rowMax x) fun k' => ?_).trans rfl
  refine (shifted_apply a4 h hφ hmax hc hb k' r).trans ?_
  rw [hx, h4 k']

/-- The focal term from the log-softmax and the target: `-(1 - exp L)² · T · L`. -/
private theorem focal_apply (a28 a18 : FVec Ideal S6x8192 .f32) (i : S6x8192.Idx) (x : Fin 6 → EReal) (l : BitVec 32) (k : Fin 6)
    (h28 : a28 i = Cert.Loss.lsm x k) (h18 : a18 i = Cert.Loss.tgt l k) :
    mulf (mulf (subf (broadcast S6x8192 (Scalar.ofBits .f32 0x00000000#32))
        (mulf (subf (broadcast S6x8192 (Scalar.ofBits .f32 0x3F800000#32)) (exp a28))
              (subf (broadcast S6x8192 (Scalar.ofBits .f32 0x3F800000#32)) (exp a28)))) a18) a28 i
      = Cert.Loss.focalElt x l k := by
  show ((Ideal.ofBits .f32 0x00000000#32 - (Cert.Loss.oneW - Ideal.exp (a28 i)) * (Cert.Loss.oneW - Ideal.exp (a28 i))) * a18 i) * a28 i = _
  rw [Ideal.ofBits_zero_f32, zero_sub, h28, h18]
  rfl

/-! ## The smoothed target -/

/-- The word compare of two label words, widened and read as a real, is 1 where they agree and 0 elsewhere. -/
private theorem onehot_word (a b : BitVec 32) :
    ((((IntOp.cmpi .eq a b).setWidth 32).toInt : ℝ) : EReal) = if b = a then 1 else 0 := by
  by_cases he : b = a
  · subst he
    rw [if_pos rfl]
    have h1 : IntOp.cmpi .eq b b = 1#1 := by simp [IntOp.cmpi]
    rw [h1]
    have h2 : ((1#1 : BitVec 1).setWidth 32).toInt = 1 := by decide
    rw [h2]; simp
  · rw [if_neg he]
    have h1 : IntOp.cmpi .eq a b = 0#1 := by
      have hne : (a == b) = false := beq_eq_false_iff_ne.2 fun h => he h.symm
      show BitVec.ofBool (a == b) = 0#1
      rw [hne]; rfl
    rw [h1]
    have h2 : ((0#1 : BitVec 1).setWidth 32).toInt = 0 := by decide
    rw [h2]; simp

/-- The class index compared with the row's label, as a float array: 1 at the labelled class, 0 elsewhere. -/
private theorem onehot_apply (lab : IVec S1x8192 32) (hi : S6x8192.Iotas .tc 32 [0]) (hb : S1x8192.Broadcasts S6x8192)
    (hlt : 1 < 32) (k : Fin 6) (r : Fin 8192) :
    (sitofp .f32 (extui 32 (cmpi .eq (iota .tc S6x8192 32 [0] hi) (broadcastTo S6x8192 lab hb)) hlt) : FVec Ideal S6x8192 .f32) (ix2 k r)
      = if lab (ix2 0 r) = BitVec.ofNat 32 k.val then 1 else 0 := by
  have hio : iota .tc S6x8192 32 [0] hi (ix2 k r) = BitVec.ofNat 32 k.val := iota_single_apply .tc S6x8192 32 0 hi (ix2 k r)
  have hbl : broadcastTo S6x8192 lab hb (ix2 k r) = lab (ix2 0 r) := broadcastTo_1b_ab_apply lab hb k r
  show ((((IntOp.cmpi .eq (iota .tc S6x8192 32 [0] hi (ix2 k r)) (broadcastTo S6x8192 lab hb (ix2 k r))).setWidth 32).toInt : ℝ) : EReal) = _
  rw [hio, hbl]
  exact onehot_word _ _

/-- The kernel's class indicator of a tile's labels. -/
private theorem pay4_apply (x2 : Vec Ideal S8192x1 .i32) (k : Fin 6) (r : Fin 8192) :
    k0_pay4 (F := Ideal) x2 (ix2 k r) = if x2 (ix2 r 0) = BitVec.ofNat 32 k.val then 1 else 0 := by
  unfold k0_pay4
  refine (onehot_apply _ _ _ _ k r).trans ?_
  rw [shapeCast_self]
  rw [transpose_ix2_apply x2 transposes_S8192x1_p1_0_S1x8192 0 r]

/-- The two target words and the named gap between them, as reals. -/
private theorem offT_val : Cert.Loss.offT = ((10737418 / 536870912 : ℝ) : EReal) := by
  unfold Cert.Loss.offT
  simp [Ideal.ofBits, Ideal.ieee, -EReal.coe_mul]; norm_num

private theorem onT_val : Cert.Loss.onT = ((15099494 / 16777216 : ℝ) : EReal) := by
  unfold Cert.Loss.onT
  simp [Ideal.ofBits, Ideal.ieee, -EReal.coe_mul]; norm_num

private theorem gap_val :
    Named.named (F := Ideal) κ "on_minus_off" (φ := .f32) 0x3F6147AE#32 = ((236223195 / 268435456 : ℝ) : EReal) :=
  IdealRules.named_const.ideal_named_scalar _ _ _ _ rfl

/-- The off-target value plus the gap times the class indicator is the loss's smoothed target. -/
private theorem tgt_apply (oh : FVec Ideal S6x8192 .f32) (i : S6x8192.Idx) (l : BitVec 32) (k : Fin 6)
    (hoh : oh i = if l = BitVec.ofNat 32 k.val then 1 else 0) :
    addf (broadcast S6x8192 (Scalar.ofBits .f32 0x3CA3D70A#32))
        (mulf (broadcast S6x8192 (Named.named κ "on_minus_off" 0x3F6147AE#32)) oh) i
      = Cert.Loss.tgt l k := by
  show Cert.Loss.offT + Named.named (F := Ideal) κ "on_minus_off" (φ := .f32) 0x3F6147AE#32 * oh i = _
  rw [hoh, gap_val]
  unfold Cert.Loss.tgt
  by_cases he : l = BitVec.ofNat 32 k.val
  · rw [if_pos he, if_pos he, mul_one, offT_val, onT_val, ← EReal.coe_add]
    exact congrArg _ (by norm_num)
  · rw [if_neg he, if_neg he, mul_zero, add_zero]

/-- A tile's focal total: over its 8192 rows and 6 classes, the loss's focal term of the row's logits and label. -/
theorem pay5_apply (x1 : Vec Ideal S8192x6 .f32) (x2 : Vec Ideal S8192x1 .i32) :
    k0_pay5 x1 x2 (ix2 0 0)
      = ∑ r : Fin 8192, ∑ k : Fin 6, Cert.Loss.focalElt (fun k' => x1 (ix2 r k')) (x2 (ix2 r 0)) k := by
  unfold k0_pay5
  -- the total is the sum over rows of the sum over classes of the last product
  refine (shapeCast_a_1a_apply _ shapeCasts_S1_S1x1 0 0).trans ?_
  refine (rowSum _ _ _ _ 0).trans ?_
  refine Finset.sum_congr rfl fun r _ => ?_
  refine (shapeCast_a_1a_apply _ shapeCasts_S8192_S1x8192 0 r).trans ?_
  refine (colSum _ _ _ _ r).trans ?_
  refine Finset.sum_congr rfl fun k _ => ?_
  -- and that product is the focal term of the row's log-softmax and target
  refine focal_apply _ _ (ix2 k r) (fun k' => x1 (ix2 r k')) (x2 (ix2 r 0)) k ?_ ?_
  · exact lsm_apply _ _ _ _ _ _ _ k r _ fun k' => transpose_ix2_apply x1 transposes_S8192x6_p1_0_S6x8192 k' r
  · exact tgt_apply _ _ _ k (pay4_apply x2 k r)

/-- The first output block is the accumulator with a unit axis in front. -/
theorem pay8_apply (v : Vec Ideal S8x128 .f32) (a : Fin 1) (b : Fin 8) (d : Fin 128) :
    k0_pay8 v (ix3 a b d) = v (ix2 b d) := by
  unfold k0_pay8
  exact shapeCast_ab_1ab_apply v _ a b d

/-- The second output block likewise. -/
theorem pay9_apply (v : Vec Ideal S8x128 .f32) (a : Fin 1) (b : Fin 8) (d : Fin 128) :
    k0_pay9 v (ix3 a b d) = v (ix2 b d) := by
  unfold k0_pay9
  exact shapeCast_ab_1ab_apply v _ a b d

end Cert.KernelIdeal.Payload

end
-- ==== Proof.KPayloadV.lean ====
/-
  The kernel's squared-error update read at the extended reals: the table row a label selects is the one-hot-weighted
  sum of the table's rows, so each tile adds, over its rows and three channels, the squared error against that row.
-/
import proofs.«430152_j8701603742268_3_alg».proof.Proof.Gen.KernelIdeal.Skeleton
import proofs.«430152_j8701603742268_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Payload

open Idealize.ShloMosaic Idealize.ShloMosaic.ValueIdx
open Cert.KernelIdeal Cert.KernelIdeal.Gen

/-- A compared-equal bit, widened and converted, is 1 or 0. -/
private theorem sitofp_bit (a b : BitVec 32) :
    FloatOps.sitofp (F := Ideal) .f32 ((IntOp.cmpi .eq a b).setWidth 32) = if b = a then (1 : EReal) else 0 := by
  by_cases h : a = b
  · subst h
    rw [StableHlo.Predicate.cmpi_eq_iff.2 rfl, if_pos rfl]
    show (((BitVec.setWidth 32 1#1).toInt : ℝ) : EReal) = 1
    rw [show (BitVec.setWidth 32 1#1).toInt = 1 from by decide]
    simp
  · have h0 : IntOp.cmpi .eq a b = 0#1 := eq_zero_of_ne_one (fun e => h (StableHlo.Predicate.cmpi_eq_iff.1 e))
    rw [h0, if_neg (fun e => h e.symm)]
    show (((BitVec.setWidth 32 0#1).toInt : ℝ) : EReal) = 0
    rw [show (BitVec.setWidth 32 0#1).toInt = 0 from by decide]
    simp

/-- The one-hot entry: 1 where the row's label word names class `k`, else 0. -/
private theorem onehot_apply (x2 : Vec Ideal S8192x1 .i32) (k : Fin 6) (r : Fin 8192) :
    k0_pay4 (F := Ideal) x2 (ix2 k r) = if x2 (ix2 r 0) = BitVec.ofNat 32 k.val then (1 : EReal) else 0 := by
  unfold k0_pay4
  rw [sitofp_apply, extui_apply]
  show FloatOps.sitofp (F := Ideal) .f32 ((IntOp.cmpi .eq (iota .tc S6x8192 32 [0] iota_S6x8192_d0_w32 (ix2 k r))
    (broadcastTo S6x8192 (transpose S1x8192 [1, 0] (shapeCast S8192x1 x2 shapeCasts_S8192x1_S8192x1) transposes_S8192x1_p1_0_S1x8192) broadcasts_S1x8192_S6x8192 (ix2 k r))).setWidth 32) = _
  rw [iota_single_apply, broadcastTo_1b_ab_apply, transpose_ix2_apply, shapeCast_self]
  exact sitofp_bit _ _

/-- A column `[a, 1]` broadcast to `[a, b]` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a `[1, 1]` array broadcast to `[a, b]`. -/
private theorem broadcastTo_11_ab_apply {α : Type} {a b : ℕ} (v : (⟨2, ![1, 1]⟩ : Shape).Idx → α)
    (h : (⟨2, ![1, 1]⟩ : Shape).Broadcasts ⟨2, ![a, b]⟩) (y : (⟨2, ![a, b]⟩ : Shape).Idx) :
    broadcastTo ⟨2, ![a, b]⟩ v h y = v (ix2 (0 : Fin 1) (0 : Fin 1)) := by
  refine broadcastTo_apply v h y (ix2 (0 : Fin 1) (0 : Fin 1)) fun ax => ?_
  match ax with
  | ⟨0, _⟩ => rfl
  | ⟨1, _⟩ => rfl

/-- The index a sum over axis 0 of a matrix inserts is `(k, r)`. -/
private theorem lift0_eq {a b : ℕ} (h : Shape.Reduces ⟨2, ![a, b]⟩ [0] ⟨1, ![b]⟩) (r : Fin b) (k : Fin a) :
    h.lift (ix1 r) k = ix2 k r :=
  funext fun c => match c with | ⟨0, _⟩ => rfl | ⟨1, _⟩ => rfl

/-- The index a sum over axis 1 of a one-row matrix inserts is `(0, k)`. -/
private theorem lift1_eq {b : ℕ} (h : Shape.Reduces ⟨2, ![1, b]⟩ [1] ⟨1, ![1]⟩) (u : Fin 1) (k : Fin b) :
    h.lift (ix1 u) k = ix2 u k :=
  funext fun c => match c with | ⟨0, _⟩ => rfl | ⟨1, _⟩ => rfl

/-- One table column weighted by the one-hot and summed over the six classes, as a row `[1, 8192]`. -/
private theorem tblrow_apply (x0 : Vec Ideal S6x3 .f32) (v14 : FVec Ideal S6x8192 .f32) (o : Nat)
    (h : S6x3.Slices ![0, o] S6x1) (c : Fin 3) (hc : c.val = o) (u : Fin 1) (r : Fin 8192) :
    shapeCast S1x8192 (multiReduction (F := Ideal) .add [0] S8192
        (mulf v14 (broadcastTo S6x8192 (extractStridedSlice S6x1 ![0, o] x0 h) broadcasts_S6x1_S6x8192))
        0x00000000#32 reduces_S6x8192_S8192 (.inl rfl) rfl) shapeCasts_S8192_S1x8192 (ix2 u r)
      = ∑ k : Fin 6, v14 (ix2 k r) * x0 (ix2 k c) := by
  rw [shapeCast_a_1a_apply]
  refine (Ideal.multiReduction_add_single _ _ reduces_S6x8192_S8192 _ _ (ix1 r)).trans ?_
  refine Finset.sum_congr rfl fun (k : Fin 6) _ => ?_
  rw [lift0_eq, mulf_apply, broadcastTo_a1_ab_apply]
  rw [slice2_axis1_apply o x0 h k (0 : Fin 1) c (by rw [hc]; rfl)]

/-- Three rows stacked: row `0`, `1`, `2` of the stack is the first, second, third piece's one row. -/
private theorem stack3_apply_0 {α : Type} (a b c : S1x8192.Idx → α)
    (h : Shape.Concatenates [S1x8192, S1x8192, S1x8192] S3x8192 0) (r : Fin 8192) :
    concatenate S3x8192 0 [⟨S1x8192, a⟩, ⟨S1x8192, b⟩, ⟨S1x8192, c⟩] h (ix2 (0 : Fin 3) r) = a (ix2 (0 : Fin 1) r) :=
  concatenate_apply_piece 0 [⟨S1x8192, a⟩, ⟨S1x8192, b⟩, ⟨S1x8192, c⟩] h (ix2 (0 : Fin 3) r) 0 (by show 0 < 3; omega) S1x8192 a rfl rfl 0 rfl (ix2 (0 : Fin 1) r)
    (fun d hd => match d with | ⟨0, _⟩ => absurd rfl hd | ⟨1, _⟩ => rfl) rfl

private theorem stack3_apply_1 {α : Type} (a b c : S1x8192.Idx → α)
    (h : Shape.Concatenates [S1x8192, S1x8192, S1x8192] S3x8192 0) (r : Fin 8192) :
    concatenate S3x8192 0 [⟨S1x8192, a⟩, ⟨S1x8192, b⟩, ⟨S1x8192, c⟩] h (ix2 (1 : Fin 3) r) = b (ix2 (0 : Fin 1) r) :=
  concatenate_apply_piece 0 [⟨S1x8192, a⟩, ⟨S1x8192, b⟩, ⟨S1x8192, c⟩] h (ix2 (1 : Fin 3) r) 1 (by show 1 < 3; omega) S1x8192 b rfl rfl 1 rfl (ix2 (0 : Fin 1) r)
    (fun d hd => match d with | ⟨0, _⟩ => absurd rfl hd | ⟨1, _⟩ => rfl) rfl

private theorem stack3_apply_2 {α : Type} (a b c : S1x8192.Idx → α)
    (h : Shape.Concatenates [S1x8192, S1x8192, S1x8192] S3x8192 0) (r : Fin 8192) :
    concatenate S3x8192 0 [⟨S1x8192, a⟩, ⟨S1x8192, b⟩, ⟨S1x8192, c⟩] h (ix2 (2 : Fin 3) r) = c (ix2 (0 : Fin 1) r) :=
  concatenate_apply_piece 0 [⟨S1x8192, a⟩, ⟨S1x8192, b⟩, ⟨S1x8192, c⟩] h (ix2 (2 : Fin 3) r) 2 (by show 2 < 3; omega) S1x8192 c rfl rfl 2 rfl (ix2 (0 : Fin 1) r)
    (fun d hd => match d with | ⟨0, _⟩ => absurd rfl hd | ⟨1, _⟩ => rfl) rfl

/-- The one-hot-weighted sum of a table column is the entry of the row the label names, 0 for a word naming no class. -/
private theorem onehot_sum (T : S6x3.Idx → EReal) (l : BitVec 32) (j : Fin 3) :
    ∑ k : Fin 6, (if l = BitVec.ofNat 32 k.val then (1 : EReal) else 0) * T (ix2 k j) = Cert.Loss.tblAt T l j := by
  unfold Cert.Loss.tblAt
  by_cases h : l.toNat < 6
  · rw [dif_pos h]
    refine (Finset.sum_eq_single (⟨l.toNat, h⟩ : Fin 6) (fun b _ hb => ?_) (fun hn => absurd (Finset.mem_univ _) hn)).trans ?_
    · have hne : ¬ l = BitVec.ofNat 32 b.val := fun e => hb (Fin.ext (by
        have := congrArg BitVec.toNat e
        rw [BitVec.toNat_ofNat] at this
        have hb6 := b.isLt
        show b.val = l.toNat
        omega))
      rw [if_neg hne, zero_mul]
    · rw [if_pos (show l = BitVec.ofNat 32 l.toNat from BitVec.eq_of_toNat_eq (by rw [BitVec.toNat_ofNat]; exact (Nat.mod_eq_of_lt l.isLt).symm)), one_mul]
  · rw [dif_neg h]
    refine Finset.sum_eq_zero fun b _ => ?_
    have hne : ¬ l = BitVec.ofNat 32 b.val := fun e => h (by
      have := congrArg BitVec.toNat e
      rw [BitVec.toNat_ofNat] at this
      have hb6 := b.isLt
      omega)
    rw [if_neg hne, zero_mul]

/-- The transposed predictions read the source at swapped coordinates. -/
private theorem pay3_apply (x3 : Vec Ideal S8192x3 .f32) (j : Fin 3) (r : Fin 8192) :
    k0_pay3 (F := Ideal) x3 (ix2 j r) = x3 (ix2 r j) := by
  unfold k0_pay3
  exact transpose_ix2_apply x3 _ j r

/-- The update with the one-hot and the transposed predictions still opaque: every entry gains the tile's total of
    squared differences between a prediction and the one-hot-weighted class sum of its table column. -/
private theorem pay7_core (v9 : FVec Ideal S3x8192 .f32) (v14 : FVec Ideal S6x8192 .f32) (x0 : Vec Ideal S6x3 .f32)
    (v71 : Vec Ideal S8x128 .f32) (y : S8x128.Idx) :
    k0_pay7 v9 v14 x0 v71 y = v71 y + ∑ r : Fin 8192, ∑ j : Fin 3,
      (v9 (ix2 j r) - ∑ k : Fin 6, v14 (ix2 k r) * x0 (ix2 k j))
        * (v9 (ix2 j r) - ∑ k : Fin 6, v14 (ix2 k r) * x0 (ix2 k j)) := by
  unfold k0_pay7
  rw [shapeCast_self, addf_apply, broadcastTo_11_ab_apply, shapeCast_self, shapeCast_a_1a_apply]
  refine congrArg (v71 y + ·) ?_
  refine (Ideal.multiReduction_add_single _ _ reduces_S1x8192_S1 _ _ (ix1 (0 : Fin 1))).trans ?_
  refine Finset.sum_congr rfl fun (r : Fin 8192) _ => ?_
  rw [lift1_eq, shapeCast_a_1a_apply]
  refine (Ideal.multiReduction_add_single _ _ reduces_S3x8192_S8192 _ _ (ix1 r)).trans ?_
  refine Finset.sum_congr rfl fun (j : Fin 3) _ => ?_
  rw [lift0_eq, mulf_apply, subf_apply]
  have hrow : ∀ (j : Fin 3), concatenate S3x8192 0
      [⟨S1x8192, shapeCast S1x8192 (multiReduction (F := Ideal) .add [0] S8192
          (mulf v14 (broadcastTo S6x8192 (extractStridedSlice S6x1 ![0, 0] x0 slices_S6x3_o0_0_S6x1) broadcasts_S6x1_S6x8192))
          0x00000000#32 reduces_S6x8192_S8192 (.inl rfl) rfl) shapeCasts_S8192_S1x8192⟩,
       ⟨S1x8192, shapeCast S1x8192 (multiReduction (F := Ideal) .add [0] S8192
          (mulf v14 (broadcastTo S6x8192 (extractStridedSlice S6x1 ![0, 1] x0 slices_S6x3_o0_1_S6x1) broadcasts_S6x1_S6x8192))
          0x00000000#32 reduces_S6x8192_S8192 (.inl rfl) rfl) shapeCasts_S8192_S1x8192⟩,
       ⟨S1x8192, shapeCast S1x8192 (multiReduction (F := Ideal) .add [0] S8192
          (mulf v14 (broadcastTo S6x8192 (extractStridedSlice S6x1 ![0, 2] x0 slices_S6x3_o0_2_S6x1) broadcasts_S6x1_S6x8192))
          0x00000000#32 reduces_S6x8192_S8192 (.inl rfl) rfl) shapeCasts_S8192_S1x8192⟩]
      concatenates_S1x8192_S1x8192_S1x8192_S3x8192_d0 (ix2 j r) = ∑ k : Fin 6, v14 (ix2 k r) * x0 (ix2 k j) := fun j =>
    match j with
    | ⟨0, _⟩ => (stack3_apply_0 _ _ _ _ r).trans (tblrow_apply x0 v14 0 _ 0 rfl 0 r)
    | ⟨1, _⟩ => (stack3_apply_1 _ _ _ _ r).trans (tblrow_apply x0 v14 1 _ 1 rfl 0 r)
    | ⟨2, _⟩ => (stack3_apply_2 _ _ _ _ r).trans (tblrow_apply x0 v14 2 _ 2 rfl 0 r)
  rw [hrow j]

/-- The squared-error update: what the accumulator held plus, over the tile's rows and 3 channels, the squared error
    against the table row the label's one-hot selects (table `x0`). -/
theorem pay7_apply (x3 : Vec Ideal S8192x3 .f32) (x2 : Vec Ideal S8192x1 .i32) (x0 : Vec Ideal S6x3 .f32)
    (v71 : Vec Ideal S8x128 .f32) (y : S8x128.Idx) :
    k0_pay7 (k0_pay3 x3) (k0_pay4 x2) x0 v71 y
      = v71 y + ∑ r : Fin 8192, ∑ j : Fin 3, Cert.Loss.vadElt x0 (fun j' => x3 (ix2 r j')) (x2 (ix2 r 0)) j := by
  rw [pay7_core]
  refine congrArg (v71 y + ·) ?_
  refine Finset.sum_congr rfl fun r _ => Finset.sum_congr rfl fun j _ => ?_
  have hs : ∑ k : Fin 6, k0_pay4 (F := Ideal) x2 (ix2 k r) * x0 (ix2 k j) = Cert.Loss.tblAt x0 (x2 (ix2 r 0)) j := by
    rw [← onehot_sum]
    exact Finset.sum_congr rfl fun k _ => by rw [onehot_apply]
  rw [hs, pay3_apply]
  rfl

end Cert.KernelIdeal.Payload

end
-- ==== Proof.KBlocks.lean ====
/-
  The kernel's input blocks as pieces of the argument arrays: point `t` of the grid stages rows
  `8192·t … 8192·t + 8191` of the logits, of the labels (reshaped to a column) and of the predictions, and the whole
  class table. With that, the tile totals of all 512 points add up to the loss's two totals over all 4194304 rows.
-/
import proofs.«430152_j8701603742268_3_alg».proof.Proof.Gen.KernelIdeal.Frame
import proofs.«430152_j8701603742268_3_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.ValueIdx Idealize.SL.Sem
open Cert.KernelIdeal Cert.KernelIdeal.Gen

variable (m : (ℓ : Loc nD τ sig) → Buf (Elt Ideal) ℓ)

/-- The four input blocks of point `t`, at their literal types. -/
abbrev tblk (c : Dev nD) (t : Fin cfg0.N) : Vec Ideal S6x3 .f32 := iblk m c 0 t
abbrev xblk (c : Dev nD) (t : Fin cfg0.N) : Vec Ideal S8192x6 .f32 := iblk m c 1 t
abbrev lblk (c : Dev nD) (t : Fin cfg0.N) : Vec Ideal S8192x1 .i32 := iblk m c 2 t
abbrev vblk (c : Dev nD) (t : Fin cfg0.N) : Vec Ideal S8192x3 .f32 := iblk m c 3 t

/-- The three argument arrays the blocks are cut from. -/
abbrev argX (c : Dev nD) : FVec Ideal S4194304x6 .f32 := m ((c.tc : Thread nD τ).loc main_arg0)
abbrev argL (c : Dev nD) : IVec S4194304 32 := m ((c.tc : Thread nD τ).loc main_arg1)
abbrev argV (c : Dev nD) : FVec Ideal S4194304x3 .f32 := m ((c.tc : Thread nD τ).loc main_arg2)

/-- Row `r` of point `t`'s block is row `8192·t + r` of the array. -/
theorem row_lt (t : Fin cfg0.N) (r : Fin 8192) : t.val * 8192 + r.val < 4194304 := by
  have ht : t.val < 512 := lt_of_lt_of_eq t.isLt N_0
  have hr := r.isLt
  omega

/-! ## The arrays the host operations write before the region -/

/-- The table array holds the constant's eighteen words, row by row. -/
private theorem V_cst (c : Dev nD) :
    (V m c main_cst : S6x3.Idx → EReal) = fun i => Ideal.ofBits .f32 (lit0 (S6x3.rowMajor i)) := by
  show StableHlo.after hostOps0 (fun b => m (c, b)) (Proc.devRef .tc main_cst) = _
  after_results
  rfl

/-- The label column is the label vector reshaped. -/
private theorem V_v0 (c : Dev nD) :
    (V m c main_v0 : S4194304x1.Idx → BitVec 32)
      = shapeCast S4194304x1 (argL m c) shapeCasts_S4194304_S4194304x1 := by
  show StableHlo.after hostOps0 (fun b => m (c, b)) (Proc.devRef .tc main_v0) = _
  after_results
  rfl

/-- The two spellings of the class table's words agree. -/
private theorem lit_eq : lit0 = Cert.Loss.litT := by
  funext n; fin_cases n <;> rfl

/-! ## The block indices over the grid: the table's block is always block (0, 0); the three row windows' block at
    point `t` is block (t, 0). -/

private theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
private theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
private theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
private theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-! ## The block reads: a block's coordinate on an axis is its block index times the block's extent plus the
    coordinate inside the block. -/

/-- The table block is the class table at every point. -/
theorem tblk_eq (c : Dev nD) (t : Fin cfg0.N) : tblk m c t = Cert.Loss.vadTable := by
  funext j
  show V m c main_cst (((cfg0.win 0).blk t).view.emb j) = _
  have e : ((cfg0.win 0).blk t).view.emb j = j := by
    funext a; apply Fin.ext
    obtain ⟨e0, e1⟩ := idx0 t
    match a with
    | ⟨0, _⟩ => show win0_0.index t (0 : Fin 2) * 6 + 1 * (j 0).val = (j 0).val; omega
    | ⟨1, _⟩ => show win0_0.index t (1 : Fin 2) * 3 + 1 * (j 1).val = (j 1).val; omega
  rw [e, V_cst, lit_eq]
  rfl

theorem xblk_apply (c : Dev nD) (t : Fin cfg0.N) (r : Fin 8192) (k : Fin 6) :
    xblk m c t (ix2 r k) = argX m c (ix2 ⟨t.val * 8192 + r.val, row_lt t r⟩ k) := by
  show V m c main_arg0 (((cfg0.win 1).blk t).view.emb (ix2 r k)) = _
  rw [V_main_arg0]
  refine congrArg _ ?_
  funext a; apply Fin.ext
  obtain ⟨e0, e1⟩ := idx1 t
  match a with
  | ⟨0, _⟩ => show win0_1.index t (0 : Fin 2) * 8192 + 1 * r.val = t.val * 8192 + r.val; omega
  | ⟨1, _⟩ => show win0_1.index t (1 : Fin 2) * 6 + 1 * k.val = k.val; omega

/-- The label column at row `8192·t + r` is the label vector there: the reshape keeps the row-major position. -/
theorem lblk_apply (c : Dev nD) (t : Fin cfg0.N) (r : Fin 8192) :
    lblk m c t (ix2 r 0) = argL m c (ix1 ⟨t.val * 8192 + r.val, row_lt t r⟩) := by
  show V m c main_v0 (((cfg0.win 2).blk t).view.emb (ix2 r 0)) = _
  rw [V_v0]
  refine shapeCast_apply _ _ _ _ ?_
  rw [Shape.rowMajor_val_one, Shape.rowMajor_val_two]
  obtain ⟨e0, e1⟩ := idx2 t
  show t.val * 8192 + r.val = (win0_2.index t (0 : Fin 2) * 8192 + 1 * r.val) * 1 + (win0_2.index t (1 : Fin 2) * 1 + 1 * 0)
  omega

theorem vblk_apply (c : Dev nD) (t : Fin cfg0.N) (r : Fin 8192) (j : Fin 3) :
    vblk m c t (ix2 r j) = argV m c (ix2 ⟨t.val * 8192 + r.val, row_lt t r⟩ j) := by
  show V m c main_arg2 (((cfg0.win 3).blk t).view.emb (ix2 r j)) = _
  rw [V_main_arg2]
  refine congrArg _ ?_
  funext a; apply Fin.ext
  obtain ⟨e0, e1⟩ := idx3 t
  match a with
  | ⟨0, _⟩ => show win0_3.index t (0 : Fin 2) * 8192 + 1 * r.val = t.val * 8192 + r.val; omega
  | ⟨1, _⟩ => show win0_3.index t (1 : Fin 2) * 3 + 1 * j.val = j.val; omega

/-- Point `t`'s focal total. -/
def tileF (c : Dev nD) (t : Fin cfg0.N) : EReal :=
  ∑ r : Fin 8192, ∑ k : Fin 6, Cert.Loss.focalElt (fun k' => xblk m c t (ix2 r k')) (lblk m c t (ix2 r 0)) k

/-- Point `t`'s squared-error total. -/
def tileV (c : Dev nD) (t : Fin cfg0.N) : EReal :=
  ∑ r : Fin 8192, ∑ j : Fin 3, Cert.Loss.vadElt (tblk m c t) (fun j' => vblk m c t (ix2 r j')) (lblk m c t (ix2 r 0)) j

/-! ## The sum over the tiles: every row `q < n·k` is `t·k + r` for exactly one pair `(t, r)`, so a sum over the rows
    is the sum over the tiles of the sums over each tile's rows. -/

private theorem sum_fin_mul {M : Type} [AddCommMonoid M] (n k : ℕ) (g : Fin (n * k) → M)
    (h : ∀ (t : Fin n) (r : Fin k), t.val * k + r.val < n * k) :
    ∑ t : Fin n, ∑ r : Fin k, g ⟨t.val * k + r.val, h t r⟩ = ∑ q : Fin (n * k), g q := by
  rw [← Equiv.sum_comp finProdFinEquiv g, Fintype.sum_prod_type]
  refine Finset.sum_congr rfl fun t _ => Finset.sum_congr rfl fun r _ => congrArg g (Fin.ext ?_)
  show t.val * k + r.val = r.val + k * t.val
  rw [Nat.mul_comm, Nat.add_comm]

/-- At 512 tiles of 8192 rows. -/
private theorem sum_tiles (g : Fin 4194304 → EReal) :
    ∑ t : Fin cfg0.N, ∑ r : Fin 8192, g ⟨t.val * 8192 + r.val, row_lt t r⟩ = ∑ q : Fin 4194304, g q := by
  have h := sum_fin_mul (M := EReal) 512 8192 g
    (fun t r => by have := t.isLt; have := r.isLt; omega)
  refine Eq.trans ?_ h
  exact Fintype.sum_equiv (finCongr N_0) _ _ (fun t => rfl)

/-- The 512 tiles' focal totals add up to the focal total over all rows. -/
theorem sum_tileF (c : Dev nD) : ∑ t : Fin cfg0.N, tileF m c t = Cert.Loss.totalFocal (argX m c) (argL m c) := by
  unfold Cert.Loss.totalFocal
  rw [← sum_tiles (fun q => ∑ k : Fin 6, Cert.Loss.focalElt (fun k' => argX m c (ix2 q k')) (argL m c (ix1 q)) k)]
  refine Finset.sum_congr rfl fun t _ => ?_
  unfold tileF
  refine Finset.sum_congr rfl fun r _ => ?_
  have hx : (fun k' => xblk m c t (ix2 r k')) = fun k' => argX m c (ix2 ⟨t.val * 8192 + r.val, row_lt t r⟩ k') :=
    funext fun k' => xblk_apply m c t r k'
  rw [hx, lblk_apply]

/-- The 512 tiles' squared-error totals add up to the squared-error total over all rows. -/
theorem sum_tileV (c : Dev nD) :
    ∑ t : Fin cfg0.N, tileV m c t = Cert.Loss.totalVad Cert.Loss.vadTable (argV m c) (argL m c) := by
  unfold Cert.Loss.totalVad
  rw [← sum_tiles (fun q => ∑ j : Fin 3, Cert.Loss.vadElt Cert.Loss.vadTable (fun j' => argV m c (ix2 q j')) (argL m c (ix1 q)) j)]
  refine Finset.sum_congr rfl fun t _ => ?_
  unfold tileV
  refine Finset.sum_congr rfl fun r _ => ?_
  have hv : (fun j' => vblk m c t (ix2 r j')) = fun j' => argV m c (ix2 ⟨t.val * 8192 + r.val, row_lt t r⟩ j') :=
    funext fun j' => vblk_apply m c t r j'
  rw [hv, lblk_apply, tblk_eq]

end Cert.KernelIdeal.Blocks

end
-- ==== Proof.KAccum.lean ====
/-
  What the two accumulators hold after each grid point: the totals of the tiles of the point's half up to the point.
  Points 0 … 255 are one half and 256 … 511 the other; the first point of a half resets the accumulators to zero before
  adding its tile, every later point adds its tile to what the point before left, and the last point of a half also
  copies both accumulators to the output blocks.
-/
import proofs.«430152_j8701603742268_3_alg».proof.Proof.KPieces
import proofs.«430152_j8701603742268_3_alg».proof.Proof.KPayload
import proofs.«430152_j8701603742268_3_alg».proof.Proof.KPayloadV
import proofs.«430152_j8701603742268_3_alg».proof.Proof.KBlocks

set_option maxRecDepth 16384

noncomputable section

namespace Cert.KernelIdeal.Accum

open Idealize.ShloMosaic Idealize.ShloMosaic.ValueIdx Idealize.SL.Sem
open Cert.KernelIdeal Cert.KernelIdeal.Gen Cert.KernelIdeal.Blocks

variable (m : (ℓ : Loc nD τ sig) → Buf (Elt Ideal) ℓ)

/-- The points of `t`'s half from its first point up to `t`. -/
def upTo (t : Fin cfg0.N) : Finset (Fin cfg0.N) :=
  Finset.univ.filter fun s => t.val - t.val % 256 ≤ s.val ∧ s.val ≤ t.val

/-- At a half's first point the range is that point alone. -/
private theorem upTo_first (t : Fin cfg0.N) (h0 : t.val % 256 = 0) : upTo t = {t} := by
  ext s
  simp only [upTo, Finset.mem_filter, Finset.mem_univ, true_and, Finset.mem_singleton]
  constructor
  · intro h; apply Fin.ext; omega
  · intro h; subst h; omega

/-- At any later point of a half the range is the point itself added to the range of the point before. -/
private theorem upTo_step (t : Fin cfg0.N) (h0 : ¬ t.val % 256 = 0) :
    upTo t = insert t (upTo ⟨t.val - 1, Nat.lt_of_le_of_lt (Nat.sub_le _ _) t.isLt⟩) := by
  ext s
  simp only [upTo, Finset.mem_filter, Finset.mem_univ, true_and, Finset.mem_insert]
  rw [Fin.ext_iff]
  omega

/-- A point is not in the range of the point before it. -/
private theorem not_mem_upTo_pred (t : Fin cfg0.N) (h0 : ¬ t.val % 256 = 0) :
    t ∉ upTo ⟨t.val - 1, Nat.lt_of_le_of_lt (Nat.sub_le _ _) t.isLt⟩ := by
  simp only [upTo, Finset.mem_filter, Finset.mem_univ, true_and]
  omega

/-- The total over a later point's range is the total over the range before it plus the point's own tile. -/
private theorem sum_upTo_step (f : Fin cfg0.N → EReal) (t : Fin cfg0.N) (h0 : ¬ t.val % 256 = 0) :
    ∑ s ∈ upTo t, f s
      = ∑ s ∈ upTo ⟨t.val - 1, Nat.lt_of_le_of_lt (Nat.sub_le _ _) t.isLt⟩, f s + f t := by
  rw [upTo_step t h0, Finset.sum_insert (not_mem_upTo_pred t h0), add_comm]

/-- The focal accumulator, by induction on the point: a half's first point holds zero plus its tile, every later point
    what the point before left plus its tile. -/
private theorem accF_aux (c : Dev nD) (k : ℕ) : ∀ (t : Fin cfg0.N), t.val = k → ∀ (y : S8x128.Idx),
    (outsAt0 m c t.val t.isLt).2.2.1 y = ∑ s ∈ upTo t, tileF m c s := by
  induction k using Nat.strong_induction_on with
  | _ k ih =>
    intro t hk y
    by_cases h0 : t.val % 256 = 0
    · have h1 : ¬ t.val % 256 = 255 := by omega
      rw [outsAt0_A m c t h0 h1]; dsimp only
      refine (congrFun (Pieces.sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (tblk m c t) (xblk m c t) (lblk m c t) (vblk m c t)) y).trans ?_
      refine (Payload.pay6_apply _ _ y).trans ?_
      rw [Payload.pay1_apply y, zero_add, Payload.pay5_apply, upTo_first t h0, Finset.sum_singleton]
      rfl
    · have hprev := ih (t.val - 1) (by omega) ⟨t.val - 1, Nat.lt_of_le_of_lt (Nat.sub_le _ _) t.isLt⟩ rfl y
      by_cases h1 : t.val % 256 = 255
      · rw [outsAt0_C m c t h0 h1]; dsimp only
        refine (congrFun (Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        refine (Payload.pay6_apply _ _ y).trans ?_
        rw [Payload.pay5_apply, sum_upTo_step (tileF m c) t h0]
        exact congrArg (· + tileF m c t) hprev
      · rw [outsAt0_B m c t h0 h1]; dsimp only
        refine (congrFun (Pieces.sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        refine (Payload.pay6_apply _ _ y).trans ?_
        rw [Payload.pay5_apply, sum_upTo_step (tileF m c) t h0]
        exact congrArg (· + tileF m c t) hprev

/-- The squared-error accumulator, by the same induction. -/
private theorem accV_aux (c : Dev nD) (k : ℕ) : ∀ (t : Fin cfg0.N), t.val = k → ∀ (y : S8x128.Idx),
    (outsAt0 m c t.val t.isLt).2.2.2 y = ∑ s ∈ upTo t, tileV m c s := by
  induction k using Nat.strong_induction_on with
  | _ k ih =>
    intro t hk y
    by_cases h0 : t.val % 256 = 0
    · have h1 : ¬ t.val % 256 = 255 := by omega
      rw [outsAt0_A m c t h0 h1]; dsimp only
      refine (congrFun (Pieces.sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (tblk m c t) (xblk m c t) (lblk m c t) (vblk m c t)) y).trans ?_
      refine (Payload.pay7_apply _ _ _ _ y).trans ?_
      rw [Payload.pay2_apply y, zero_add, upTo_first t h0, Finset.sum_singleton]
      rfl
    · have hprev := ih (t.val - 1) (by omega) ⟨t.val - 1, Nat.lt_of_le_of_lt (Nat.sub_le _ _) t.isLt⟩ rfl y
      by_cases h1 : t.val % 256 = 255
      · rw [outsAt0_C m c t h0 h1]; dsimp only
        refine (congrFun (Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        refine (Payload.pay7_apply _ _ _ _ y).trans ?_
        rw [sum_upTo_step (tileV m c) t h0]
        exact congrArg (· + tileV m c t) hprev
      · rw [outsAt0_B m c t h0 h1]; dsimp only
        refine (congrFun (Pieces.sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) y).trans ?_
        refine (Payload.pay7_apply _ _ _ _ y).trans ?_
        rw [sum_upTo_step (tileV m c) t h0]
        exact congrArg (· + tileV m c t) hprev

/-- After point `t` every entry of the focal accumulator is the focal total of the half's tiles up to `t`. -/
theorem accF_at (c : Dev nD) (t : Fin cfg0.N) (y : S8x128.Idx) :
    (outsAt0 m c t.val t.isLt).2.2.1 y = ∑ s ∈ upTo t, tileF m c s :=
  accF_aux m c t.val t rfl y

/-- After point `t` every entry of the squared-error accumulator is the squared-error total of the half's tiles up to `t`. -/
theorem accV_at (c : Dev nD) (t : Fin cfg0.N) (y : S8x128.Idx) :
    (outsAt0 m c t.val t.isLt).2.2.2 y = ∑ s ∈ upTo t, tileV m c s :=
  accV_aux m c t.val t rfl y

/-- At a half's last point the first output block holds that total in every entry. -/
theorem out4_at (c : Dev nD) (t : Fin cfg0.N) (h : t.val % 256 = 255) (a : Fin 1) (b : Fin 8) (d : Fin 128) :
    (outsAt0 m c t.val t.isLt).1 (ix3 a b d) = ∑ s ∈ upTo t, tileF m c s := by
  have h1 := h
  have h0 : ¬ t.val % 256 = 0 := by omega
  have hacc := accF_at m c t (ix2 b d)
  rw [outsAt0_C m c t h0 h1] at hacc ⊢; dsimp only at hacc ⊢
  refine (congrFun (Pieces.out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 a b d)).trans ?_
  refine (Payload.pay8_apply _ a b d).trans ?_
  refine (congrFun (Pieces.sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 b d)).symm.trans ?_
  exact hacc

/-- At a half's last point the second output block holds the squared-error total in every entry. -/
theorem out5_at (c : Dev nD) (t : Fin cfg0.N) (h : t.val % 256 = 255) (a : Fin 1) (b : Fin 8) (d : Fin 128) :
    (outsAt0 m c t.val t.isLt).2.1 (ix3 a b d) = ∑ s ∈ upTo t, tileV m c s := by
  have h1 := h
  have h0 : ¬ t.val % 256 = 0 := by omega
  have hacc := accV_at m c t (ix2 b d)
  rw [outsAt0_C m c t h0 h1] at hacc ⊢; dsimp only at hacc ⊢
  refine (congrFun (Pieces.out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 a b d)).trans ?_
  refine (Payload.pay9_apply _ a b d).trans ?_
  refine (congrFun (Pieces.sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (tblk m c t) (xblk m c t) (lblk m c t) (vblk m c t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 b d)).symm.trans ?_
  exact hacc

end Cert.KernelIdeal.Accum

end
-- ==== Proof.KArrays.lean ====
/-
  The two output arrays after the region: plane `h` (h = 0, 1) of each [2, 8, 128] array is written once, by the last
  point of half `h`, and holds in every entry the total over that half's 256 tiles.
-/
import proofs.«430152_j8701603742268_3_alg».proof.Proof.KAccum
import Idealize.ShloMosaic.Lib.Pipeline.Value

set_option maxRecDepth 16384

noncomputable section

namespace Cert.KernelIdeal.Arrays

open Idealize.ShloMosaic Idealize.ShloMosaic.ValueIdx Idealize.SL.Sem
open Cert.KernelIdeal Cert.KernelIdeal.Gen Cert.KernelIdeal.Blocks Cert.KernelIdeal.Accum

variable (m : (ℓ : Loc nD τ sig) → Buf (Elt Ideal) ℓ)

/-- The points of half `h`. -/
def half (h : ℕ) : Finset (Fin cfg0.N) := Finset.univ.filter fun s => s.val / 256 = h

/-- The first output array after the region, as one function of its index. -/
def finalF (c : Dev nD) : FVec Ideal S2x8x128 .f32 := fun i => ∑ s ∈ half (i 0).val, tileF m c s

/-- The second output array after the region. -/
def finalV (c : Dev nD) : FVec Ideal S2x8x128 .f32 := fun i => ∑ s ∈ half (i 0).val, tileV m c s

/-- Every grid point is below 512. -/
private theorem pt_lt (s : Fin cfg0.N) : s.val < 512 := by
  have h : s.val < grid0.N := s.isLt
  rwa [N_0] at h

/-- At the last point of a half, the points of the half up to it are the whole half. -/
private theorem upTo_last (t : Fin cfg0.N) (h : t.val % 256 = 255) : upTo t = half (t.val / 256) := by
  have ht := pt_lt t
  ext s
  have hs := pt_lt s
  simp only [upTo, half, Finset.mem_filter, Finset.mem_univ, true_and]
  omega

/-- The index maps of the two output windows, checked at every grid point: along the first axis the block index is
    the half of the point, along the other two it is 0. -/
private theorem out_index : ∀ t : Fin cfg0.N,
    win0_4.index t (0 : Fin 3) = t.val / 256 ∧ win0_4.index t (1 : Fin 3) = 0 ∧ win0_4.index t (2 : Fin 3) = 0
    ∧ win0_5.index t (0 : Fin 3) = t.val / 256 ∧ win0_5.index t (1 : Fin 3) = 0 ∧ win0_5.index t (2 : Fin 3) = 0 :=
  (by decide +kernel : ∀ t : Fin grid0.N, _)

/-- At a half's last point every entry of the first output block is the half's focal total. -/
private theorem out4_all (c : Dev nD) (t : Fin cfg0.N) (h : t.val % 256 = 255) (j : S1x8x128.Idx) :
    (outsAt0 m c t.val t.isLt).1 j = ∑ s ∈ half (t.val / 256), tileF m c s := by
  have e : j = ix3 (n0 := 1) (n1 := 8) (n2 := 128) (j 0) (j 1) (j 2) := eq_ix3 (n0 := 1) (n1 := 8) (n2 := 128) j
  exact (congrArg (outsAt0 m c t.val t.isLt).1 e).trans
    ((out4_at m c t h (j 0) (j 1) (j 2)).trans (congrArg (fun S => ∑ s ∈ S, tileF m c s) (upTo_last t h)))

/-- What a half's last point writes back to the first output array is its block of `finalF`. -/
private theorem flushed4_eq (c : Dev nD) (t : Fin cfg0.N) (hf : (cfg0.win 4).flush t = true) :
    (dats m 0 c).flushed 4 t = ((cfg0.win 4).blk t).view.read (Elt Ideal) (finalF m c) := by
  have h : t.val % 256 = 255 := (flush0_4 t).mp hf
  show (cfg0.win 4).cut (grid0.coords t) ((dats m 0 c).after 4 t) = _
  rw [after0_4]
  funext y
  show (outsAt0 m c t.val t.isLt).1 ((cfg0.win 4).xinj (grid0.coords t) y) = finalF m c (((cfg0.win 4).blk t).view.emb y)
  refine (out4_all m c t h _).trans ?_
  show _ = ∑ s ∈ half ((((cfg0.win 4).blk t).view.emb y) 0).val, tileF m c s
  have e : ((((cfg0.win 4).blk t).view.emb y) 0).val = t.val / 256 := by
    show win0_4.index t (0 : Fin 3) * 1 + 1 * (y 0).val = t.val / 256
    have hy : (y 0).val < 1 := (y 0).isLt
    have := (out_index t).1
    omega
  rw [e]

/-- At a half's last point every entry of the second output block is the half's squared-error total. -/
private theorem out5_all (c : Dev nD) (t : Fin cfg0.N) (h : t.val % 256 = 255) (j : S1x8x128.Idx) :
    (outsAt0 m c t.val t.isLt).2.1 j = ∑ s ∈ half (t.val / 256), tileV m c s := by
  have e : j = ix3 (n0 := 1) (n1 := 8) (n2 := 128) (j 0) (j 1) (j 2) := eq_ix3 (n0 := 1) (n1 := 8) (n2 := 128) j
  exact (congrArg (outsAt0 m c t.val t.isLt).2.1 e).trans
    ((out5_at m c t h (j 0) (j 1) (j 2)).trans (congrArg (fun S => ∑ s ∈ S, tileV m c s) (upTo_last t h)))

/-- What a half's last point writes back to the second output array is its block of `finalV`. -/
private theorem flushed5_eq (c : Dev nD) (t : Fin cfg0.N) (hf : (cfg0.win 5).flush t = true) :
    (dats m 0 c).flushed 5 t = ((cfg0.win 5).blk t).view.read (Elt Ideal) (finalV m c) := by
  have h : t.val % 256 = 255 := (flush0_5 t).mp hf
  show (cfg0.win 5).cut (grid0.coords t) ((dats m 0 c).after 5 t) = _
  rw [after0_5]
  funext y
  show (outsAt0 m c t.val t.isLt).2.1 ((cfg0.win 5).xinj (grid0.coords t) y) = finalV m c (((cfg0.win 5).blk t).view.emb y)
  refine (out5_all m c t h _).trans ?_
  show _ = ∑ s ∈ half ((((cfg0.win 5).blk t).view.emb y) 0).val, tileV m c s
  have e : ((((cfg0.win 5).blk t).view.emb y) 0).val = t.val / 256 := by
    show win0_5.index t (0 : Fin 3) * 1 + 1 * (y 0).val = t.val / 256
    have hy : (y 0).val < 1 := (y 0).isLt
    have := (out_index t).2.2.2.1
    omega
  rw [e]

/-- An index of the first output array is in point `t`'s block iff each coordinate is in the block's range on its axis. -/
private theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v1_0).slice (win0_4.rect t)).set ↔ _
  rw [View.set_slice_whole, Rect.mem_set_unit]
  exact Iff.rfl

/-- The same for the second output array. -/
private theorem mem_blk5 (t : Fin cfg0.N) (i : S2x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v1_1).slice (win0_5.rect t)).set ↔ _
  rw [View.set_slice_whole, Rect.mem_set_unit]
  exact Iff.rfl

/-- The last point of half `h` (h < 2). -/
private def lastOf (h : ℕ) (hh : h < 2) : Fin cfg0.N := ⟨h * 256 + 255, by show _ < grid0.N; rw [N_0]; omega⟩

private theorem lastOf_mod (h : ℕ) (hh : h < 2) : (lastOf h hh).val % 256 = 255 := by
  show (h * 256 + 255) % 256 = 255; omega

private theorem lastOf_div (h : ℕ) (hh : h < 2) : (lastOf h hh).val / 256 = h := by
  show (h * 256 + 255) / 256 = h; omega

/-- Every index of the first output array is in the block of the last point of the half its first coordinate names. -/
private theorem cover4 (i : S2x8x128.Idx) :
    ∃ t : Fin cfg0.N, (cfg0.win 4).flush t = true ∧ i ∈ ((cfg0.win 4).blk t).view.set := by
  have hi0 : (i 0).val < 2 := (i 0).isLt
  have hi1 : (i 1).val < 8 := (i 1).isLt
  have hi2 : (i 2).val < 128 := (i 2).isLt
  refine ⟨lastOf (i 0).val hi0, (flush0_4 _).mpr (lastOf_mod _ hi0), ?_⟩
  rw [mem_blk4]
  obtain ⟨e0, e1, e2, -, -, -⟩ := out_index (lastOf (i 0).val hi0)
  rw [lastOf_div] at e0
  intro a
  match a with
  | ⟨0, _⟩ => show win0_4.index (lastOf (i 0).val hi0) (0 : Fin 3) * 1 ≤ (i 0).val ∧ (i 0).val < win0_4.index (lastOf (i 0).val hi0) (0 : Fin 3) * 1 + 1; omega
  | ⟨1, _⟩ => show win0_4.index (lastOf (i 0).val hi0) (1 : Fin 3) * 8 ≤ (i 1).val ∧ (i 1).val < win0_4.index (lastOf (i 0).val hi0) (1 : Fin 3) * 8 + 8; omega
  | ⟨2, _⟩ => show win0_4.index (lastOf (i 0).val hi0) (2 : Fin 3) * 128 ≤ (i 2).val ∧ (i 2).val < win0_4.index (lastOf (i 0).val hi0) (2 : Fin 3) * 128 + 128; omega

/-- The same for the second output array. -/
private theorem cover5 (i : S2x8x128.Idx) :
    ∃ t : Fin cfg0.N, (cfg0.win 5).flush t = true ∧ i ∈ ((cfg0.win 5).blk t).view.set := by
  have hi0 : (i 0).val < 2 := (i 0).isLt
  have hi1 : (i 1).val < 8 := (i 1).isLt
  have hi2 : (i 2).val < 128 := (i 2).isLt
  refine ⟨lastOf (i 0).val hi0, (flush0_5 _).mpr (lastOf_mod _ hi0), ?_⟩
  rw [mem_blk5]
  obtain ⟨-, -, -, e0, e1, e2⟩ := out_index (lastOf (i 0).val hi0)
  rw [lastOf_div] at e0
  intro a
  match a with
  | ⟨0, _⟩ => show win0_5.index (lastOf (i 0).val hi0) (0 : Fin 3) * 1 ≤ (i 0).val ∧ (i 0).val < win0_5.index (lastOf (i 0).val hi0) (0 : Fin 3) * 1 + 1; omega
  | ⟨1, _⟩ => show win0_5.index (lastOf (i 0).val hi0) (1 : Fin 3) * 8 ≤ (i 1).val ∧ (i 1).val < win0_5.index (lastOf (i 0).val hi0) (1 : Fin 3) * 8 + 8; omega
  | ⟨2, _⟩ => show win0_5.index (lastOf (i 0).val hi0) (2 : Fin 3) * 128 ≤ (i 2).val ∧ (i 2).val < win0_5.index (lastOf (i 0).val hi0) (2 : Fin 3) * 128 + 128; omega

theorem arr4_final (c : Dev nD) : (dats m 0 c).arrAt 4 cfg0.N = finalF m c := by
  exact (dats m 0 c).arrAt_eq_of_cover 4 (finalF m c) (fun t hf => flushed4_eq m c t hf) cover4

theorem arr5_final (c : Dev nD) : (dats m 0 c).arrAt 5 cfg0.N = finalV m c := by
  exact (dats m 0 c).arrAt_eq_of_cover 5 (finalV m c) (fun t hf => flushed5_eq m c t hf) cover5

/-- The two halves' totals together are the total over all 512 tiles. -/
theorem half_add (f : Fin cfg0.N → EReal) : ∑ s ∈ half 0, f s + ∑ s ∈ half 1, f s = ∑ s : Fin cfg0.N, f s := by
  have hd : Disjoint (half 0) (half 1) := by
    rw [Finset.disjoint_left]
    intro s h0 h1
    simp only [half, Finset.mem_filter, Finset.mem_univ, true_and] at h0 h1
    omega
  have hu : half 0 ∪ half 1 = Finset.univ := by
    ext s
    have hs := pt_lt s
    simp only [half, Finset.mem_union, Finset.mem_filter, Finset.mem_univ, true_and, iff_true]
    omega
  rw [← Finset.sum_union hd, hu]

end Cert.KernelIdeal.Arrays

end
-- ==== Proof.KRun.lean ====
/-
  The kernel program's run with its results named: after the region the host adds the two planes' first entries of each
  output array (the two halves' totals, hence the totals over all tiles, hence the loss's totals over all rows), divides,
  and forms the weighted sum with the third loss.
-/
import proofs.«430152_j8701603742268_3_alg».proof.Proof.KArrays
import Idealize.ShloMosaic.Lib.StableHlo.Run
import Idealize.ShloMosaic.Lib.ValueLayout

set_option maxRecDepth 16384

noncomputable section

namespace Cert.KernelIdeal.Hand

open Idealize.ShloMosaic Idealize.ShloMosaic.ValueIdx Idealize.SL.Sem Idealize.ShloMosaic.TcCoe
open Cert.KernelIdeal Cert.KernelIdeal.Gen Cert.KernelIdeal.Blocks Cert.KernelIdeal.Accum Cert.KernelIdeal.Arrays

variable (m : (ℓ : Loc nD τ sig) → Buf (Elt Ideal) ℓ) (ρ : Dev nD → PrngReg)

/-- The buffer contents the host operations after the region start from: the pipeline's arrays as the region leaves
    them, everything else as the region found it. -/
abbrev W (c : Dev nD) : Valuation τ sig (Elt Ideal) :=
  Pipeline.withArrays spec0 c (V0 m c) fun w => (dats m 0 c).arrAt w cfg0.N

theorem W_out4 (c : Dev nD) : W m c (Proc.devRef .tc main_v1_0) = finalF m c :=
  (Pipeline.withArrays_arr spec0 launch0.win.arr_inj c _ _ 4).trans (arr4_final m c)

theorem W_out5 (c : Dev nD) : W m c (Proc.devRef .tc main_v1_1) = finalV m c :=
  (Pipeline.withArrays_arr spec0 launch0.win.arr_inj c _ _ 5).trans (arr5_final m c)

theorem W_arg3 (c : Dev nD) : W m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans
    (V_main_arg3 m c)

/-- The slice of an output array that starts at plane `h` holds half `h`'s total (every entry of a plane is that total). -/
theorem slice_finalF (c : Dev nD) (off : Fin 3 → ℕ) (hs : S2x8x128.Slices off S1x1x1) (j : S1x1x1.Idx) :
    extractStridedSlice S1x1x1 off (finalF m c) hs j = ∑ s ∈ half (off 0), tileF m c s := by
  unfold extractStridedSlice finalF
  have h0 : (j ((0 : Fin 3).cast hs.1.symm)).val = 0 := Fin.val_eq_zero _
  show ∑ s ∈ half (off 0 + (j ((0 : Fin 3).cast hs.1.symm)).val), tileF m c s = _
  rw [h0, Nat.add_zero]

theorem slice_finalV (c : Dev nD) (off : Fin 3 → ℕ) (hs : S2x8x128.Slices off S1x1x1) (j : S1x1x1.Idx) :
    extractStridedSlice S1x1x1 off (finalV m c) hs j = ∑ s ∈ half (off 0), tileV m c s := by
  unfold extractStridedSlice finalV
  have h0 : (j ((0 : Fin 3).cast hs.1.symm)).val = 0 := Fin.val_eq_zero _
  show ∑ s ∈ half (off 0 + (j ((0 : Fin 3).cast hs.1.symm)).val), tileV m c s = _
  rw [h0, Nat.add_zero]

theorem tail_cls (c : Dev nD) :
    Pipeline.afterTail₀ cfgs (dats m) 0 (V0 m) [hostOps1] c main_v12
      = fun _ => Cert.Loss.clsOf (Cert.Loss.totalFocal (argX m c) (argL m c)) := by
  unfold Pipeline.afterTail₀
  show StableHlo.after hostOps1 (W m c) (Proc.devRef .tc main_v12) = _
  after_results
  rw [W_out4]
  funext i
  dsimp only [Host.divf, addf, shapeCast, constant]
  rw [slice_finalF, slice_finalF]
  show Ideal.div ((∑ s ∈ half 0, tileF m c s) + ∑ s ∈ half 1, tileF m c s) (Ideal.ofBits .f32 0x4A800000#32) = _
  rw [half_add, sum_tileF]
  rfl

theorem tail_vad (c : Dev nD) :
    Pipeline.afterTail₀ cfgs (dats m) 0 (V0 m) [hostOps1] c main_v13
      = fun _ => Cert.Loss.vadOf (Cert.Loss.totalVad Cert.Loss.vadTable (argV m c) (argL m c)) := by
  unfold Pipeline.afterTail₀
  show StableHlo.after hostOps1 (W m c) (Proc.devRef .tc main_v13) = _
  after_results
  rw [W_out5]
  funext i
  dsimp only [Host.divf, addf, shapeCast, constant]
  rw [slice_finalV, slice_finalV]
  show Ideal.div ((∑ s ∈ half 0, tileV m c s) + ∑ s ∈ half 1, tileV m c s) (Ideal.ofBits .f32 0x4B400000#32) = _
  rw [half_add, sum_tileV]
  rfl

theorem tail_total (c : Dev nD) :
    Pipeline.afterTail₀ cfgs (dats m) 0 (V0 m) [hostOps1] c main_v18
      = fun _ => Cert.Loss.totalOf (Cert.Loss.totalFocal (argX m c) (argL m c))
          (Cert.Loss.totalVad Cert.Loss.vadTable (argV m c) (argL m c)) (m ((c.tc : Thread nD τ).loc main_arg3) ix0) := by
  unfold Pipeline.afterTail₀
  show StableHlo.after hostOps1 (W m c) (Proc.devRef .tc main_v18) = _
  after_results
  rw [W_out4, W_out5, W_arg3]
  funext i
  have hi := eq_ix0 i
  subst hi
  dsimp only [Host.divf, addf, mulf, shapeCast, constant]
  rw [slice_finalF, slice_finalF, slice_finalV, slice_finalV]
  show (Ideal.ofBits .f32 0x3F800000#32 * Ideal.div ((∑ s ∈ half 0, tileF m c s) + ∑ s ∈ half 1, tileF m c s) (Ideal.ofBits .f32 0x4A800000#32)
        + Ideal.ofBits .f32 0x3F000000#32 * Ideal.div ((∑ s ∈ half 0, tileV m c s) + ∑ s ∈ half 1, tileV m c s) (Ideal.ofBits .f32 0x4B400000#32))
      + Ideal.ofBits .f32 0x3E99999A#32 * m ((c.tc : Thread nD τ).loc main_arg3) ix0 = _
  rw [half_add, half_add, sum_tileF, sum_tileV]
  rfl

/-- From any memory with zero counters every weakly fair execution of the kernel program's @main terminates with the three
    computed results at the loss's values of the argument arrays, the fourth result the given third loss, and the four
    arguments unchanged. -/
theorem run :
    θ_run (defs (F := Ideal)) (onTc (τ := τ) (main (F := Ideal))) ⟨m, fun _ => 0, ρ⟩ (fun r => ∀ c : Dev nD,
      r.2.mem ((c.tc : Thread nD τ).loc main_v18)
          = (fun _ => Cert.Loss.totalOf (Cert.Loss.totalFocal (argX m c) (argL m c))
              (Cert.Loss.totalVad Cert.Loss.vadTable (argV m c) (argL m c)) (m ((c.tc : Thread nD τ).loc main_arg3) ix0))
      ∧ r.2.mem ((c.tc : Thread nD τ).loc main_v12) = (fun _ => Cert.Loss.clsOf (Cert.Loss.totalFocal (argX m c) (argL m c)))
      ∧ r.2.mem ((c.tc : Thread nD τ).loc main_v13)
          = (fun _ => Cert.Loss.vadOf (Cert.Loss.totalVad Cert.Loss.vadTable (argV m c) (argL m c)))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have h3 := ((h c).2 main_arg3 (Pipeline.mem_restRefs_of main_arg3 (by decide) (by decide))).trans (W_main_arg3 m (dats m) c)
    ⟨((h c).2 main_v18 (Pipeline.mem_restRefs_of main_v18 (by decide) (by decide))).trans (tail_total m c),
     ((h c).2 main_v12 (Pipeline.mem_restRefs_of main_v12 (by decide) (by decide))).trans (tail_cls m c),
     ((h c).2 main_v13 (Pipeline.mem_restRefs_of main_v13 (by decide) (by decide))).trans (tail_vad m c),
     h3,
     ((h c).1 1).trans (((dats m 0 c).arrAt_in 1 rfl _).trans ((A_eq m c 1).trans (V_main_arg0 m c))),
     ((h c).2 main_arg1 (Pipeline.mem_restRefs_of main_arg1 (by decide) (by decide))).trans (W_main_arg1 m (dats m) c),
     ((h c).1 3).trans (((dats m 0 c).arrAt_in 3 rfl _).trans ((A_eq m c 3).trans (V_main_arg2 m c))),
     h3⟩) (run_main m ρ)

end Cert.KernelIdeal.Hand

end
-- ==== Proof.RefTerms.lean ====
/-
  The reference's @main as pure terms of its four argument arrays, one definition per stage of the computation:
  the smoothed targets (a scatter of the on-value into the off-value), the log-softmax, the focal terms, the table
  rows the labels gather, the squared errors, and the three scalar results.
-/
import proofs.«430152_j8701603742268_3_alg».proof.Proof.Gen.ReferenceIdeal
import Idealize.ShloMosaic.PureOps.Ideal

noncomputable section

namespace Cert.ReferenceIdeal.Terms

open Idealize.ShloMosaic Cert.ReferenceIdeal Cert.ReferenceIdeal.Facts₀

/-- A label word read as an index into an axis of extent 6: a negative word has 6 added (jnp's wrap-around). -/
def wrapLabels (L : IVec S4194304 32) : IVec S4194304 32 :=
  select (cmpi .slt L (broadcastInDim S4194304 ![] bcast_S_S4194304 (constantI S_ 32 0#32)))
    (addi L (broadcastInDim S4194304 ![] bcast_S_S4194304 (constantI S_ 32 6#32))) L

/-- The row numbers 0 … 4194303, wrapped the same way (none is negative). -/
def rowIds : IVec S4194304 32 :=
  select (cmpi .slt (iotaInDim S4194304 32 0) (broadcastInDim S4194304 ![] bcast_S_S4194304 (constantI S_ 32 0#32)))
    (addi (iotaInDim S4194304 32 0) (broadcastInDim S4194304 ![] bcast_S_S4194304 (constantI S_ 32 4194304#32)))
    (iotaInDim S4194304 32 0)

/-- The scatter's index pairs (row, wrapped label). -/
def scatterIdx (L : IVec S4194304 32) : IVec S4194304x2 32 :=
  concatenate S4194304x2 1
    [⟨S4194304x1, broadcastInDim S4194304x1 ![0] bcast_S4194304_S4194304x1_0 rowIds⟩,
     ⟨S4194304x1, broadcastInDim S4194304x1 ![0] bcast_S4194304_S4194304x1_0 (wrapLabels L)⟩]
    concatenates_S4194304x1_S4194304x1_S4194304x2_d1

/-- The smoothed targets: the off-value everywhere, the on-value written at (row, label). -/
def targets (L : IVec S4194304 32) : FVec Ideal S4194304x6 .f32 :=
  Host.scatter scatter_S4194304x6_S4194304x2_S4194304_n_01_01_1 (fun _ b => b)
    (broadcastInDim S4194304x6 ![] bcast_S_S4194304x6 (constant (F := Ideal) S_ .f32 0x3CA3D70A#32))
    (scatterIdx L)
    (broadcastInDim S4194304 ![] bcast_S_S4194304 (constant (F := Ideal) S_ .f32 0x3F666666#32))

/-- Each row's largest logit, then once more against -∞. -/
def rowMaxes (X : FVec Ideal S4194304x6 .f32) : FVec Ideal S4194304 .f32 :=
  maximumf (broadcastInDim S4194304 ![] bcast_S_S4194304 (constant (F := Ideal) S_ .f32 0xFF800000#32))
    (Host.reduce FloatOps.maximumf X (constant (F := Ideal) S_ .f32 0xFF800000#32) reducesTo_S4194304x6_S4194304_d1 h_S_)

/-- The logits less their row's maximum. -/
def shifted (X : FVec Ideal S4194304x6 .f32) : FVec Ideal S4194304x6 .f32 :=
  subf X (broadcastInDim S4194304x6 ![0, 1] bcast_S4194304x1_S4194304x6_0_1
    (broadcastInDim S4194304x1 ![0] bcast_S4194304_S4194304x1_0 (rowMaxes X)))

/-- The log-softmax of every row. -/
def logSoftmax (X : FVec Ideal S4194304x6 .f32) : FVec Ideal S4194304x6 .f32 :=
  subf (shifted X) (broadcastInDim S4194304x6 ![0, 1] bcast_S4194304x1_S4194304x6_0_1
    (Host.log (broadcastInDim S4194304x1 ![0] bcast_S4194304_S4194304x1_0
      (Host.reduceAdd (Host.exp (shifted X)) (constant (F := Ideal) S_ .f32 0x00000000#32) reducesTo_S4194304x6_S4194304_d1 h_S_))))

/-- The focal terms, one per row and class. -/
def focal (X : FVec Ideal S4194304x6 .f32) (L : IVec S4194304 32) : FVec Ideal S4194304x6 .f32 :=
  mulf (mulf (Host.negf (Host.powf
      (subf (broadcastInDim S4194304x6 ![] bcast_S_S4194304x6 (constant (F := Ideal) S_ .f32 0x3F800000#32)) (Host.exp (logSoftmax X)))
      (broadcastInDim S4194304x6 ![] bcast_S_S4194304x6 (constant (F := Ideal) S_ .f32 0x40000000#32))))
    (targets L)) (logSoftmax X)

/-- The focal terms summed over classes, then over rows. -/
def focalSum (X : FVec Ideal S4194304x6 .f32) (L : IVec S4194304 32) : FVec Ideal S_ .f32 :=
  Host.reduceAdd (Host.reduceAdd (focal X L) (constant (F := Ideal) S_ .f32 0x00000000#32) reducesTo_S4194304x6_S4194304_d1 h_S_)
    (constant (F := Ideal) S_ .f32 0x00000000#32) reducesTo_S4194304_S_d0 h_S_

/-- The classification loss. -/
def cls (X : FVec Ideal S4194304x6 .f32) (L : IVec S4194304 32) : FVec Ideal S_ .f32 :=
  Host.divf (focalSum X L) (constant (F := Ideal) S_ .f32 0x4A800000#32)

/-- The class table. -/
def table : FVec Ideal S6x3 .f32 := fun i => FloatOps.ofBits .f32 (lit0 (S6x3.rowMajor i))

/-- The table rows the wrapped labels gather. -/
def vadTargets (L : IVec S4194304 32) : FVec Ideal S4194304x3 .f32 :=
  Host.gather gather_S6x3_S4194304x1_S4194304x3_1_0_n_n_0_1_13 table
    (broadcastInDim S4194304x1 ![0] bcast_S4194304_S4194304x1_0 (wrapLabels L))

/-- The squared errors, one per row and channel. -/
def sqErr (V : FVec Ideal S4194304x3 .f32) (L : IVec S4194304 32) : FVec Ideal S4194304x3 .f32 :=
  mulf (subf V (vadTargets L)) (subf V (vadTargets L))

/-- The squared errors summed over everything. -/
def sqErrSum (V : FVec Ideal S4194304x3 .f32) (L : IVec S4194304 32) : FVec Ideal S_ .f32 :=
  Host.reduceAdd (sqErr V L) (constant (F := Ideal) S_ .f32 0x00000000#32) reducesTo_S4194304x3_S_d0_1 h_S_

/-- The regression loss. -/
def vad (V : FVec Ideal S4194304x3 .f32) (L : IVec S4194304 32) : FVec Ideal S_ .f32 :=
  Host.divf (sqErrSum V L) (constant (F := Ideal) S_ .f32 0x4B400000#32)

/-- The weighted total. -/
def total (X : FVec Ideal S4194304x6 .f32) (L : IVec S4194304 32) (V : FVec Ideal S4194304x3 .f32) (M : FVec Ideal S_ .f32) :
    FVec Ideal S_ .f32 :=
  addf (addf (mulf (constant (F := Ideal) S_ .f32 0x3F800000#32) (cls X L))
      (mulf (constant (F := Ideal) S_ .f32 0x3F000000#32) (vad V L)))
    (mulf (constant (F := Ideal) S_ .f32 0x3E99999A#32) M)

end Cert.ReferenceIdeal.Terms

end
-- ==== Proof.RefRun.lean ====
/-
  The reference program's run: @main is a straight line of host operations (the log-softmax function's operations
  inlined at its call), so every execution ends with each result buffer at the composed term of the argument arrays
  (the stage definitions `Terms.total`, `Terms.cls`, `Terms.vad`) and leaves the arguments unchanged.
-/
import proofs.«430152_j8701603742268_3_alg».proof.Proof.RefTerms
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

section Line

variable {F : FTy → Type} [FloatOps F]

/-- @main's 78 operations in order: the 24 before the call, the log-softmax function's 15 over the call's own buffers
    (its argument the logits' buffer, its last value the call's result), and the 39 after it. -/
private abbrev ops : List (HloOp τ sig (Elt F)) :=
  [
    nullary main_cst (fun i => FloatOps.ofBits .f32 (lit0 (S6x3.rowMajor i))),
    nullary main_cst_0 (constant S_ .f32 0x3CA3D70A#32),
    unary main_cst_0 main_v0 (broadcastInDim S4194304x6 ![] bcast_S_S4194304x6 : (⟨S_, .f32⟩ : BufTy).Contents (Elt F) → (⟨S4194304x6, .f32⟩ : BufTy).Contents (Elt F)),
    nullary main_v1 (iotaInDim S4194304 32 0),
    nullary main_c (constantI S_ 32 0#32),
    unary main_c main_v2 (broadcastInDim S4194304 ![] bcast_S_S4194304 : (⟨S_, .i32⟩ : BufTy).Contents (Elt F) → (⟨S4194304, .i32⟩ : BufTy).Contents (Elt F)),
    binary main_v1 main_v2 main_v3 (cmpi .slt : (⟨S4194304, .i32⟩ : BufTy).Contents (Elt F) → (⟨S4194304, .i32⟩ : BufTy).Contents (Elt F) → (⟨S4194304, .i1⟩ : BufTy).Contents (Elt F)),
    nullary main_c_1 (constantI S_ 32 4194304#32),
    unary main_c_1 main_v4 (broadcastInDim S4194304 ![] bcast_S_S4194304 : (⟨S_, .i32⟩ : BufTy).Contents (Elt F) → (⟨S4194304, .i32⟩ : BufTy).Contents (Elt F)),
    binary main_v1 main_v4 main_v5 (addi : (⟨S4194304, .i32⟩ : BufTy).Contents (Elt F) → (⟨S4194304, .i32⟩ : BufTy).Contents (Elt F) → (⟨S4194304, .i32⟩ : BufTy).Contents (Elt F)),
    ternary main_v3 main_v5 main_v1 main_v6 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_2 (constantI S_ 32 0#32),
    unary main_c_2 main_v7 (broadcastInDim S4194304 ![] bcast_S_S4194304 : (⟨S_, .i32⟩ : BufTy).Contents (Elt F) → (⟨S4194304, .i32⟩ : BufTy).Contents (Elt F)),
    binary main_arg1 main_v7 main_v8 (cmpi .slt : (⟨S4194304, .i32⟩ : BufTy).Contents (Elt F) → (⟨S4194304, .i32⟩ : BufTy).Contents (Elt F) → (⟨S4194304, .i1⟩ : BufTy).Contents (Elt F)),
    nullary main_c_3 (constantI S_ 32 6#32),
    unary main_c_3 main_v9 (broadcastInDim S4194304 ![] bcast_S_S4194304 : (⟨S_, .i32⟩ : BufTy).Contents (Elt F) → (⟨S4194304, .i32⟩ : BufTy).Contents (Elt F)),
    binary main_arg1 main_v9 main_v10 (addi : (⟨S4194304, .i32⟩ : BufTy).Contents (Elt F) → (⟨S4194304, .i32⟩ : BufTy).Contents (Elt F) → (⟨S4194304, .i32⟩ : BufTy).Contents (Elt F)),
    ternary main_v8 main_v10 main_arg1 main_v11 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v6 main_v12 (broadcastInDim S4194304x1 ![0] bcast_S4194304_S4194304x1_0 : (⟨S4194304, .i32⟩ : BufTy).Contents (Elt F) → (⟨S4194304x1, .i32⟩ : BufTy).Contents (Elt F)),
    unary main_v11 main_v13 (broadcastInDim S4194304x1 ![0] bcast_S4194304_S4194304x1_0 : (⟨S4194304, .i32⟩ : BufTy).Contents (Elt F) → (⟨S4194304x1, .i32⟩ : BufTy).Contents (Elt F)),
    binary main_v12 main_v13 main_v14 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)),
    nullary main_cst_4 (constant S_ .f32 0x3F666666#32),
    unary main_cst_4 main_v15 (broadcastInDim S4194304 ![] bcast_S_S4194304 : (⟨S_, .f32⟩ : BufTy).Contents (Elt F) → (⟨S4194304, .f32⟩ : BufTy).Contents (Elt F)),
    ternary main_v0 main_v14 main_v15 main_v16 ((fun x i u => Host.scatter scatter_S4194304x6_S4194304x2_S4194304_n_01_01_1 (fun _ b => b) x i u) : (⟨S4194304x6, .f32⟩ : BufTy).Contents (Elt F) → (⟨S4194304x2, .i32⟩ : BufTy).Contents (Elt F) → (⟨S4194304, .f32⟩ : BufTy).Contents (Elt F) → (⟨S4194304x6, .f32⟩ : BufTy).Contents (Elt F)),
    nullary main_call0_cst (constant S_ .f32 0xFF800000#32),
    binary main_arg0 main_call0_cst main_call0_v0 (fun x v => Host.reduce FloatOps.maximumf x v reducesTo_S4194304x6_S4194304_d1 h_S_),
    nullary main_call0_cst_0 (constant S_ .f32 0xFF800000#32),
    unary main_call0_cst_0 main_call0_v1 (broadcastInDim S4194304 ![] bcast_S_S4194304),
    binary main_call0_v1 main_call0_v0 main_call0_v2 maximumf,
    unary main_call0_v2 main_call0_v3 (broadcastInDim S4194304x1 ![0] bcast_S4194304_S4194304x1_0),
    unary main_call0_v3 main_call0_v4 (broadcastInDim S4194304x6 ![0, 1] bcast_S4194304x1_S4194304x6_0_1),
    binary main_arg0 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S4194304x6_S4194304_d1 h_S_),
    unary main_call0_v7 main_call0_v8 (broadcastInDim S4194304x1 ![0] bcast_S4194304_S4194304x1_0),
    unary main_call0_v8 main_call0_v9 Host.log,
    unary main_call0_v9 main_call0_v10 (broadcastInDim S4194304x6 ![0, 1] bcast_S4194304x1_S4194304x6_0_1),
    binary main_call0_v5 main_call0_v10 main_v17 subf,
    unary main_v17 main_v18 (Host.exp : (⟨S4194304x6, .f32⟩ : BufTy).Contents (Elt F) → (⟨S4194304x6, .f32⟩ : BufTy).Contents (Elt F)),
    nullary main_cst_5 (constant S_ .f32 0x3F800000#32),
    unary main_cst_5 main_v19 (broadcastInDim S4194304x6 ![] bcast_S_S4194304x6 : (⟨S_, .f32⟩ : BufTy).Contents (Elt F) → (⟨S4194304x6, .f32⟩ : BufTy).Contents (Elt F)),
    binary main_v19 main_v18 main_v20 (subf : (⟨S4194304x6, .f32⟩ : BufTy).Contents (Elt F) → (⟨S4194304x6, .f32⟩ : BufTy).Contents (Elt F) → (⟨S4194304x6, .f32⟩ : BufTy).Contents (Elt F)),
    nullary main_cst_6 (constant S_ .f32 0x40000000#32),
    unary main_cst_6 main_v21 (broadcastInDim S4194304x6 ![] bcast_S_S4194304x6 : (⟨S_, .f32⟩ : BufTy).Contents (Elt F) → (⟨S4194304x6, .f32⟩ : BufTy).Contents (Elt F)),
    binary main_v20 main_v21 main_v22 (Host.powf : (⟨S4194304x6, .f32⟩ : BufTy).Contents (Elt F) → (⟨S4194304x6, .f32⟩ : BufTy).Contents (Elt F) → (⟨S4194304x6, .f32⟩ : BufTy).Contents (Elt F)),
    unary main_v22 main_v23 (Host.negf : (⟨S4194304x6, .f32⟩ : BufTy).Contents (Elt F) → (⟨S4194304x6, .f32⟩ : BufTy).Contents (Elt F)),
    binary main_v23 main_v16 main_v24 (mulf : (⟨S4194304x6, .f32⟩ : BufTy).Contents (Elt F) → (⟨S4194304x6, .f32⟩ : BufTy).Contents (Elt F) → (⟨S4194304x6, .f32⟩ : BufTy).Contents (Elt F)),
    binary main_v24 main_v17 main_v25 (mulf : (⟨S4194304x6, .f32⟩ : BufTy).Contents (Elt F) → (⟨S4194304x6, .f32⟩ : BufTy).Contents (Elt F) → (⟨S4194304x6, .f32⟩ : BufTy).Contents (Elt F)),
    nullary main_cst_7 (constant S_ .f32 0x00000000#32),
    binary main_v25 main_cst_7 main_v26 ((fun x v => Host.reduceAdd x v reducesTo_S4194304x6_S4194304_d1 h_S_) : (⟨S4194304x6, .f32⟩ : BufTy).Contents (Elt F) → (⟨S_, .f32⟩ : BufTy).Contents (Elt F) → (⟨S4194304, .f32⟩ : BufTy).Contents (Elt F)),
    nullary main_cst_8 (constant S_ .f32 0x00000000#32),
    binary main_v26 main_cst_8 main_v27 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_9 (constant S_ .f32 0x4A800000#32),
    binary main_v27 main_cst_9 main_v28 (Host.divf : (⟨S_, .f32⟩ : BufTy).Contents (Elt F) → (⟨S_, .f32⟩ : BufTy).Contents (Elt F) → (⟨S_, .f32⟩ : BufTy).Contents (Elt F)),
    nullary main_c_10 (constantI S_ 32 0#32),
    unary main_c_10 main_v29 (broadcastInDim S4194304 ![] bcast_S_S4194304 : (⟨S_, .i32⟩ : BufTy).Contents (Elt F) → (⟨S4194304, .i32⟩ : BufTy).Contents (Elt F)),
    binary main_arg1 main_v29 main_v30 (cmpi .slt : (⟨S4194304, .i32⟩ : BufTy).Contents (Elt F) → (⟨S4194304, .i32⟩ : BufTy).Contents (Elt F) → (⟨S4194304, .i1⟩ : BufTy).Contents (Elt F)),
    nullary main_c_11 (constantI S_ 32 6#32),
    unary main_c_11 main_v31 (broadcastInDim S4194304 ![] bcast_S_S4194304 : (⟨S_, .i32⟩ : BufTy).Contents (Elt F) → (⟨S4194304, .i32⟩ : BufTy).Contents (Elt F)),
    binary main_arg1 main_v31 main_v32 (addi : (⟨S4194304, .i32⟩ : BufTy).Contents (Elt F) → (⟨S4194304, .i32⟩ : BufTy).Contents (Elt F) → (⟨S4194304, .i32⟩ : BufTy).Contents (Elt F)),
    ternary main_v30 main_v32 main_arg1 main_v33 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v33 main_v34 (broadcastInDim S4194304x1 ![0] bcast_S4194304_S4194304x1_0 : (⟨S4194304, .i32⟩ : BufTy).Contents (Elt F) → (⟨S4194304x1, .i32⟩ : BufTy).Contents (Elt F)),
    binary main_cst main_v34 main_v35 ((fun x i => Host.gather gather_S6x3_S4194304x1_S4194304x3_1_0_n_n_0_1_13 x i) : (⟨S6x3, .f32⟩ : BufTy).Contents (Elt F) → (⟨S4194304x1, .i32⟩ : BufTy).Contents (Elt F) → (⟨S4194304x3, .f32⟩ : BufTy).Contents (Elt F)),
    binary main_arg2 main_v35 main_v36 (subf : (⟨S4194304x3, .f32⟩ : BufTy).Contents (Elt F) → (⟨S4194304x3, .f32⟩ : BufTy).Contents (Elt F) → (⟨S4194304x3, .f32⟩ : BufTy).Contents (Elt F)),
    binary main_v36 main_v36 main_v37 (mulf : (⟨S4194304x3, .f32⟩ : BufTy).Contents (Elt F) → (⟨S4194304x3, .f32⟩ : BufTy).Contents (Elt F) → (⟨S4194304x3, .f32⟩ : BufTy).Contents (Elt F)),
    nullary main_cst_12 (constant S_ .f32 0x00000000#32),
    binary main_v37 main_cst_12 main_v38 ((fun x v => Host.reduceAdd x v reducesTo_S4194304x3_S_d0_1 h_S_) : (⟨S4194304x3, .f32⟩ : BufTy).Contents (Elt F) → (⟨S_, .f32⟩ : BufTy).Contents (Elt F) → (⟨S_, .f32⟩ : BufTy).Contents (Elt F)),
    nullary main_cst_13 (constant S_ .f32 0x4B400000#32),
    binary main_v38 main_cst_13 main_v39 (Host.divf : (⟨S_, .f32⟩ : BufTy).Contents (Elt F) → (⟨S_, .f32⟩ : BufTy).Contents (Elt F) → (⟨S_, .f32⟩ : BufTy).Contents (Elt F)),
    nullary main_cst_14 (constant S_ .f32 0x3F800000#32),
    binary main_cst_14 main_v28 main_v40 (mulf : (⟨S_, .f32⟩ : BufTy).Contents (Elt F) → (⟨S_, .f32⟩ : BufTy).Contents (Elt F) → (⟨S_, .f32⟩ : BufTy).Contents (Elt F)),
    nullary main_cst_15 (constant S_ .f32 0x3F000000#32),
    binary main_cst_15 main_v39 main_v41 (mulf : (⟨S_, .f32⟩ : BufTy).Contents (Elt F) → (⟨S_, .f32⟩ : BufTy).Contents (Elt F) → (⟨S_, .f32⟩ : BufTy).Contents (Elt F)),
    binary main_v40 main_v41 main_v42 (addf : (⟨S_, .f32⟩ : BufTy).Contents (Elt F) → (⟨S_, .f32⟩ : BufTy).Contents (Elt F) → (⟨S_, .f32⟩ : BufTy).Contents (Elt F)),
    nullary main_cst_16 (constant S_ .f32 0x3E99999A#32),
    binary main_cst_16 main_arg3 main_v43 (mulf : (⟨S_, .f32⟩ : BufTy).Contents (Elt F) → (⟨S_, .f32⟩ : BufTy).Contents (Elt F) → (⟨S_, .f32⟩ : BufTy).Contents (Elt F)),
    binary main_v42 main_v43 main_v44 (addf : (⟨S_, .f32⟩ : BufTy).Contents (Elt F) → (⟨S_, .f32⟩ : BufTy).Contents (Elt F) → (⟨S_, .f32⟩ : BufTy).Contents (Elt F)) ]

attribute [local irreducible] Host.reduce in
set_option maxRecDepth 4096 in
set_option maxHeartbeats 40000000 in
/-- @main is that straight line: its two windows run in order, the function's body unfolded at its call and the
    call's record at its fields; both sides are one chain of steps once sequencing is re-associated, a typed reference
    made of a literal buffer moving contents by the identity. -/
private theorem main_eq (c : Dev nD) : main (F := F) c = seq ops := by
  simp only [main, main_part0, main_part1, fn_log_softmax.body, seq, bind_assoc, pure_bind]
  rfl

private theorem scopedRefs_eq : (Finset.univ.filter fun b : Ref sig .tc => b.isScoped) = ∅ := by decide
private theorem scopedSems_eq : (Finset.univ.filter fun sm : SemLoc sig => sm.isScoped .tc) = ∅ := by decide

/-- Every operation touches TensorCore references only. -/
private theorem ops_sub : (ops : List (HloOp τ sig (Elt F))).Forall fun op => op.bufs ⊆ tcRefs τ sig :=
  ⟨
    nullary_bufs_sub .., nullary_bufs_sub .., unary_bufs_sub .., nullary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., nullary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., unary_bufs_sub .., binary_bufs_sub ..,
    binary_bufs_sub .., nullary_bufs_sub .., binary_bufs_sub .., nullary_bufs_sub .., binary_bufs_sub .., nullary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., binary_bufs_sub .., nullary_bufs_sub .., binary_bufs_sub .., nullary_bufs_sub .., binary_bufs_sub ..,
    nullary_bufs_sub .., binary_bufs_sub .., binary_bufs_sub .., nullary_bufs_sub .., binary_bufs_sub .., binary_bufs_sub ..⟩

end Line

/-! ## The results read back

The fold of the operations' results at one buffer is that buffer's operation applied to the fold at its operands,
and at a buffer no operation writes what was there: unrolled from each result buffer down to the arguments, this is
the stage term. -/

attribute [local irreducible] Host.reduce Host.reduceAdd Host.gather Host.scatter concatenate iotaInDim broadcastInDim Host.exp Host.log Host.powf Host.negf Host.divf in
set_option maxRecDepth 8192 in
set_option maxHeartbeats 4000000 in
/-- The weighted total: the fold at its buffer is the stage term of the four arguments. -/
private theorem total_eq (V : Valuation τ sig (Elt Ideal)) :
    after ops V (main_v44 : DevRef τ sig)
      = Terms.total (V (main_arg0 : DevRef τ sig)) (V (main_arg1 : DevRef τ sig)) (V (main_arg2 : DevRef τ sig)) (V (main_arg3 : DevRef τ sig)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

attribute [local irreducible] Host.reduce Host.reduceAdd Host.gather Host.scatter concatenate iotaInDim broadcastInDim Host.exp Host.log Host.powf Host.negf Host.divf in
set_option maxRecDepth 8192 in
set_option maxHeartbeats 4000000 in
/-- The classification loss: the fold at its buffer is the stage term of the logits and the labels. -/
private theorem cls_eq (V : Valuation τ sig (Elt Ideal)) :
    after ops V (main_v28 : DevRef τ sig) = Terms.cls (V (main_arg0 : DevRef τ sig)) (V (main_arg1 : DevRef τ sig)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

attribute [local irreducible] Host.reduce Host.reduceAdd Host.gather Host.scatter concatenate iotaInDim broadcastInDim Host.exp Host.log Host.powf Host.negf Host.divf in
set_option maxRecDepth 8192 in
set_option maxHeartbeats 4000000 in
/-- The regression loss: the fold at its buffer is the stage term of the predictions and the labels. -/
private theorem vad_eq (V : Valuation τ sig (Elt Ideal)) :
    after ops V (main_v39 : DevRef τ sig) = Terms.vad (V (main_arg2 : DevRef τ sig)) (V (main_arg1 : DevRef τ sig)) := by
  after_results_simp
  rfl

/-- No operation writes an argument's buffer. -/
private theorem arg0_eq (V : Valuation τ sig (Elt Ideal)) : after ops V (main_arg0 : DevRef τ sig) = V (main_arg0 : DevRef τ sig) := by
  after_results_simp
private theorem arg1_eq (V : Valuation τ sig (Elt Ideal)) : after ops V (main_arg1 : DevRef τ sig) = V (main_arg1 : DevRef τ sig) := by
  after_results_simp
private theorem arg2_eq (V : Valuation τ sig (Elt Ideal)) : after ops V (main_arg2 : DevRef τ sig) = V (main_arg2 : DevRef τ sig) := by
  after_results_simp
private theorem arg3_eq (V : Valuation τ sig (Elt Ideal)) : after ops V (main_arg3 : DevRef τ sig) = V (main_arg3 : DevRef τ sig) := by
  after_results_simp

/-- From any memory with zero counters every weakly fair execution of the reference's @main terminates with the three
    computed results at the stage terms of the arguments, and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = Terms.total (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v28) = Terms.cls (m ((c.tc : Thread nD τ).loc main_arg0)) (m ((c.tc : Thread nD τ).loc main_arg1))
      ∧ r.2.mem ((c.tc : Thread nD τ).loc main_v39) = Terms.vad (m ((c.tc : Thread nD τ).loc main_arg2)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v44).trans (total_eq _), (h c main_v28).trans (cls_eq _), (h c main_v39).trans (vad_eq _),
      (h c main_arg0).trans (arg0_eq _), (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.HandRun

end
-- ==== Proof.RefIndex.lean ====
/-
  The reference's two indexed stages read at an index, for labels that name a class (their words below 6):
  the scatter leaves at (row, class) the on-value where the class is the row's label and the off-value elsewhere
  (every update carries the same value and update `r` lands at (r, label r)); the gather reads the table row of the
  row's label.
-/
import proofs.«430152_j8701603742268_3_alg».proof.Proof.RefTerms
import proofs.«430152_j8701603742268_3_alg».proof.Proof.Spec
import Idealize.ShloMosaic.Lib.ValueIdx
import Idealize.ShloMosaic.Lib.StableHlo.Predicate
import Idealize.ShloMosaic.Lib.Pipeline.Value

noncomputable section

namespace Cert.ReferenceIdeal.Index

open Idealize.ShloMosaic Idealize.ShloMosaic.ValueIdx
open Cert.ReferenceIdeal Cert.ReferenceIdeal.Gen

/-! ## A left fold of overwrites by one constant -/

open Classical in
/-- A left fold whose every step overwrites at most one position, always by the same value `v`: afterwards a position
    holds `v` if some step of the list hit it, and what it held before otherwise. -/
private theorem foldl_const_set {ι κ α : Type} (g : ι → Option κ) (v : α)
    (step : (κ → α) → ι → (κ → α))
    (hstep : ∀ r n i', step r n i' = if g n = some i' then v else r i') :
    ∀ (l : List ι) (x : κ → α) (i' : κ),
      (l.foldl step x) i' = if ∃ n ∈ l, g n = some i' then v else x i' := by
  intro l
  induction l with
  | nil => intro x i'; simp
  | cons a l ih =>
    intro x i'
    rw [List.foldl_cons, ih, hstep]
    by_cases h1 : ∃ n ∈ l, g n = some i'
    · rw [if_pos h1, if_pos]
      obtain ⟨n, hn, e⟩ := h1
      exact ⟨n, List.mem_cons_of_mem _ hn, e⟩
    · rw [if_neg h1]
      by_cases h2 : g a = some i'
      · rw [if_pos h2, if_pos]
        exact ⟨a, List.mem_cons_self, h2⟩
      · rw [if_neg h2, if_neg]
        rintro ⟨n, hn, e⟩
        rcases List.mem_cons.1 hn with rfl | hn
        · exact h2 e
        · exact h1 ⟨n, hn, e⟩

/-! ## The index columns read at a row -/

/-- A vector kept as a column reads, at (q, 0), the vector at q. -/
private theorem col_apply {α : Type} (v : S4194304.Idx → α) (q : Fin 4194304) :
    broadcastInDim S4194304x1 ![0] bcast_S4194304_S4194304x1_0 v (ix2 q (0 : Fin 1)) = v (ix1 q) := by
  simp only [broadcastInDim]
  congr 1
  funext a
  match a with
  | ⟨0, _⟩ =>
    apply Fin.ext
    split
    · next h1 => change (4194304 : Nat) = 1 at h1; omega
    · rfl

/-- No row number is negative: the wrapped row numbers are the row numbers. -/
private theorem rowIds_apply (q : Fin 4194304) : Terms.rowIds (ix1 q) = BitVec.ofNat 32 q.val := by
  have hq := q.isLt
  have hn : ¬ IntOp.cmpi .slt (BitVec.ofNat 32 q.val) 0#32 = 1#1 := by
    rw [StableHlo.Predicate.slt_iff_toNat (by rw [BitVec.toNat_ofNat]; omega) (by decide)]
    simp
  show Scalar.select (IntOp.cmpi .slt (BitVec.ofNat 32 q.val) 0#32) _ (BitVec.ofNat 32 q.val) = _
  rw [eq_zero_of_ne_one hn, select_zero]

/-- A label word that names a class is not negative: wrapping leaves it. -/
private theorem wrapLabels_apply (L : IVec S4194304 32) (q : Fin 4194304) (h : (L (ix1 q)).toNat < 6) :
    Terms.wrapLabels L (ix1 q) = L (ix1 q) := by
  have hn : ¬ IntOp.cmpi .slt (L (ix1 q)) 0#32 = 1#1 := by
    rw [StableHlo.Predicate.slt_iff_toNat (by omega) (by decide)]
    simp
  show Scalar.select (IntOp.cmpi .slt (L (ix1 q)) 0#32) _ (L (ix1 q)) = _
  rw [eq_zero_of_ne_one hn, select_zero]

/-- The scatter's index pair of row q: first the row number. -/
private theorem scatterIdx_row (L : IVec S4194304 32) (q : Fin 4194304) :
    Terms.scatterIdx L (ix2 q (0 : Fin 2)) = BitVec.ofNat 32 q.val := by
  unfold Terms.scatterIdx
  rw [concatenate_pair_apply_left (s₁ := S4194304x1) (s₂ := S4194304x1) (1 : Fin S4194304x2.rank) _ _ _ (ix2 q (0 : Fin 2)) rfl (ix2 q (0 : Fin 1))
    (fun b => by match b with | ⟨0, _⟩ => rfl | ⟨1, _⟩ => rfl)]
  rw [col_apply, rowIds_apply]

/-- … then the row's label. -/
private theorem scatterIdx_label (L : IVec S4194304 32) (q : Fin 4194304) (h : (L (ix1 q)).toNat < 6) :
    Terms.scatterIdx L (ix2 q (1 : Fin 2)) = L (ix1 q) := by
  unfold Terms.scatterIdx
  rw [concatenate_pair_apply_right (s₁ := S4194304x1) (s₂ := S4194304x1) (1 : Fin S4194304x2.rank) _ _ _ (ix2 q (1 : Fin 2)) rfl rfl (ix2 q (0 : Fin 1))
    (fun b hb => by match b with | ⟨0, _⟩ => rfl | ⟨1, _⟩ => exact absurd rfl hb) rfl]
  rw [col_apply, wrapLabels_apply L q h]

/-! ## Where update q lands -/

/-- The scatter's dimension numbers: both operand axes start-indexed and inserted, the index pair along axis 1. -/
private abbrev sd := scatter_S4194304x6_S4194304x2_S4194304_n_01_01_1

/-- Update q reads component c of its index pair at (q, c). -/
private theorem siIdx_eq (q : Fin 4194304) (c : Fin sd.scatterDimsToOperandDims.length) :
    sd.siIdx (ix1 q) c = ix2 q (⟨c.val, c.isLt⟩ : Fin 2) := by
  funext b
  match b with
  | ⟨0, _⟩ =>
    unfold ScatterDims.siIdx
    rw [dif_neg (by show ¬ (0 : Nat) = 1; omega)]
    unfold ScatterDims.siCoord
    apply Fin.ext
    simp only [Fin.val_cast]
    have e : ∀ X : Fin 1, ((ix1 q : S4194304.Idx) X).val = q.val := fun X => by
      have hX : X = 0 := Subsingleton.elim _ _
      subst hX; rfl
    exact e _
  | ⟨1, _⟩ =>
    unfold ScatterDims.siIdx
    rw [dif_pos (by rfl)]
    rfl

/-- The window's start on the row axis is the row number. -/
private theorem start_row (L : IVec S4194304 32) (q : Fin 4194304) :
    sd.start (ix1 q) (Terms.scatterIdx L) (0 : Fin 2) = (q.val : Int) := by
  have hq := q.isLt
  unfold ScatterDims.start
  rw [dif_pos (by decide), siIdx_eq]
  show (Terms.scatterIdx L (ix2 q (0 : Fin 2))).toInt = _
  rw [scatterIdx_row, StableHlo.Predicate.toInt_ofNat_small _ (by omega)]

/-- The window's start on the class axis is the row's label. -/
private theorem start_label (L : IVec S4194304 32) (q : Fin 4194304) (h : (L (ix1 q)).toNat < 6) :
    sd.start (ix1 q) (Terms.scatterIdx L) (1 : Fin 2) = ((L (ix1 q)).toNat : Int) := by
  unfold ScatterDims.start
  rw [dif_pos (by decide), siIdx_eq]
  show (Terms.scatterIdx L (ix2 q (1 : Fin 2))).toInt = _
  rw [scatterIdx_label L q h, StableHlo.Predicate.toInt_eq_toNat_of_lt (by omega)]

/-- Both operand axes are inserted: the window has no coordinates. -/
private theorem window_eq (j : S4194304.Idx) (a : Fin 2) : sd.window j a = 0 := by
  have hk : sd.sKept = [] := by decide
  unfold ScatterDims.window
  rw [dif_neg (by intro h; rw [hk] at h; exact List.not_mem_nil h)]

/-- Update q lands at (q, label q). -/
private theorem resultIdx_eq (L : IVec S4194304 32) (q : Fin 4194304) (h : (L (ix1 q)).toNat < 6) :
    sd.resultIdx? (ix1 q) (Terms.scatterIdx L) = some (ix2 q ⟨(L (ix1 q)).toNat, h⟩) := by
  have hq := q.isLt
  have h0 := start_row L q
  have h1 := start_label L q h
  have hin : ∀ a : Fin 2, 0 ≤ sd.start (ix1 q) (Terms.scatterIdx L) a + sd.window (ix1 q) a
      ∧ sd.start (ix1 q) (Terms.scatterIdx L) a + sd.window (ix1 q) a < S4194304x6.size a := by
    intro a
    match a with
    | ⟨0, _⟩ =>
      rw [window_eq]
      show 0 ≤ sd.start (ix1 q) (Terms.scatterIdx L) (0 : Fin 2) + ((0 : Nat) : Int)
        ∧ sd.start (ix1 q) (Terms.scatterIdx L) (0 : Fin 2) + ((0 : Nat) : Int) < ((4194304 : Nat) : Int)
      rw [h0]; omega
    | ⟨1, _⟩ =>
      rw [window_eq]
      show 0 ≤ sd.start (ix1 q) (Terms.scatterIdx L) (1 : Fin 2) + ((0 : Nat) : Int)
        ∧ sd.start (ix1 q) (Terms.scatterIdx L) (1 : Fin 2) + ((0 : Nat) : Int) < ((6 : Nat) : Int)
      rw [h1]; omega
  unfold ScatterDims.resultIdx?
  rw [dif_pos hin]
  congr 1
  funext a
  apply Fin.ext
  match a with
  | ⟨0, _⟩ =>
    show (sd.start (ix1 q) (Terms.scatterIdx L) (0 : Fin 2) + (sd.window (ix1 q) (0 : Fin 2) : Int)).toNat = q.val
    rw [window_eq, h0]; omega
  | ⟨1, _⟩ =>
    show (sd.start (ix1 q) (Terms.scatterIdx L) (1 : Fin 2) + (sd.window (ix1 q) (1 : Fin 2) : Int)).toNat = (L (ix1 q)).toNat
    rw [window_eq, h1]; omega

/-- The smoothed targets at (row r, class k). -/
theorem targets_apply (L : IVec S4194304 32) (hL : ∀ r : Fin 4194304, (L (ix1 r)).toNat < 6)
    (r : Fin 4194304) (k : Fin 6) :
    Terms.targets L (ix2 r k) = Cert.Loss.tgt (L (ix1 r)) k := by
  have hk := k.isLt
  -- position (r, k) is hit by some update exactly when k is row r's label
  have hiff : (∃ n ∈ List.finRange S4194304.numel,
        sd.resultIdx? (S4194304.rowMajor.symm n) (Terms.scatterIdx L) = some (ix2 r k))
      ↔ L (ix1 r) = BitVec.ofNat 32 k.val := by
    constructor
    · rintro ⟨n, -, hn⟩
      obtain ⟨q, hq⟩ : ∃ q, S4194304.rowMajor.symm n = ix1 q := ⟨_, eq_ix1 _⟩
      rw [hq, resultIdx_eq L q (hL q)] at hn
      have hn' := Option.some.inj hn
      have e0 : q = r := congrFun hn' (0 : Fin 2)
      have e1 : (L (ix1 q)).toNat = k.val := congrArg Fin.val (congrFun hn' (1 : Fin 2))
      rw [e0] at e1
      apply BitVec.eq_of_toNat_eq
      rw [BitVec.toNat_ofNat, e1]
      omega
    · intro e
      refine ⟨S4194304.rowMajor (ix1 r), List.mem_finRange _, ?_⟩
      rw [Equiv.symm_apply_apply, resultIdx_eq L r (hL r)]
      congr 2
      apply Fin.ext
      show (L (ix1 r)).toNat = k.val
      rw [e, BitVec.toNat_ofNat]
      omega
  unfold Terms.targets Host.scatter
  refine Eq.trans (foldl_const_set
    (fun n => sd.resultIdx? (S4194304.rowMajor.symm n) (Terms.scatterIdx L))
    (Ideal.ofBits .f32 0x3F666666#32) _ ?_ _ _ _) ?_
  · intro x n i'
    generalize sd.resultIdx? (S4194304.rowMajor.symm n) (Terms.scatterIdx L) = o
    cases o with
    | none =>
      dsimp only
      rw [if_neg (by simp)]
    | some i =>
      dsimp only
      by_cases e : i' = i
      · rw [if_pos e, if_pos (congrArg some e.symm)]
        rfl
      · rw [if_neg e, if_neg (fun h => e (Option.some.inj h).symm)]
  · unfold Cert.Loss.tgt
    by_cases e : L (ix1 r) = BitVec.ofNat 32 k.val
    · rw [if_pos (hiff.2 e), if_pos e]
      rfl
    · rw [if_neg (fun h => e (hiff.1 h)), if_neg e]
      rfl

/-! ## The gather -/

/-- The gather's dimension numbers: table axis 0 collapsed and start-indexed, axis 1 an offset axis of the whole row. -/
private abbrev gd := gather_S6x3_S4194304x1_S4194304x3_1_0_n_n_0_1_13

private theorem fin2_cases : ∀ b : Fin 2, b = 0 ∨ b = 1 := by decide

/-- Result (r, j) reads its one start index at (r, 0). -/
private theorem gsiIdx_eq (r : Fin 4194304) (j : Fin 3) (c : Fin gd.startIndexMap.length) :
    gd.siIdx (ix2 r j) c = ix2 r (0 : Fin 1) := by
  funext b
  rcases fin2_cases b with rfl | rfl
  · unfold GatherDims.siIdx
    rw [dif_neg (by show ¬ (0 : Nat) = 1; omega)]
    unfold GatherDims.siCoord
    apply Fin.ext
    simp only [Fin.val_cast]
    rfl
  · unfold GatherDims.siIdx
    rw [dif_pos (by rfl)]
    apply Fin.ext
    show c.val = 0
    have h1 : gd.startIndexMap.length = 1 := rfl
    have := c.isLt
    omega

/-- Result (r, j) reads the table at (label r, j). -/
private theorem operandIdx_eq (L : IVec S4194304 32) (r : Fin 4194304) (j : Fin 3) (h : (L (ix1 r)).toNat < 6) :
    gd.operandIdx (ix2 r j) (broadcastInDim S4194304x1 ![0] bcast_S4194304_S4194304x1_0 (Terms.wrapLabels L))
      = ix2 ⟨(L (ix1 r)).toNat, h⟩ j := by
  funext a
  apply Fin.ext
  rcases fin2_cases a with rfl | rfl
  · -- the collapsed axis: the clamped start, no batching or offset coordinate
    have hb : (0 : Fin 2) ∉ gd.operandBatchingDims := by decide
    have hk : (0 : Fin 2) ∉ gd.sKept := by decide
    have hm : (0 : Fin 2) ∈ gd.startIndexMap := by decide
    simp only [GatherDims.operandIdx, GatherDims.batchCoord_eq_zero _ _ _ hb, GatherDims.offCoord_eq_zero _ _ _ hk,
      Nat.add_zero, GatherDims.start, dif_pos hm]
    rw [gsiIdx_eq, col_apply, wrapLabels_apply L r h, StableHlo.Predicate.toInt_eq_toNat_of_lt (by omega)]
    show min ((L (ix1 r)).toNat : Int).toNat (6 - 1) = (L (ix1 r)).toNat
    rw [Int.toNat_natCast]
    omega
  · -- the offset axis: start 0, the result's own column
    have hb : (1 : Fin 2) ∉ gd.operandBatchingDims := by decide
    have hm : (1 : Fin 2) ∉ gd.startIndexMap := by decide
    simp only [GatherDims.operandIdx, GatherDims.batchCoord_eq_zero _ _ _ hb, GatherDims.start, dif_neg hm,
      Nat.add_zero, Nat.zero_add]
    unfold GatherDims.offCoord
    rw [dif_pos (by decide)]
    rfl

/-- The gathered table row at (row r, channel j). -/
theorem vadTargets_apply (L : IVec S4194304 32) (hL : ∀ r : Fin 4194304, (L (ix1 r)).toNat < 6)
    (r : Fin 4194304) (j : Fin 3) :
    Terms.vadTargets L (ix2 r j) = Cert.Loss.tblAt Cert.Loss.vadTable (L (ix1 r)) j := by
  have hlit : (lit0 : Fin 18 → BitVec 32) = Cert.Loss.litT := by funext n; fin_cases n <;> rfl
  unfold Terms.vadTargets Host.gather Cert.Loss.tblAt
  rw [operandIdx_eq L r j (hL r), dif_pos (hL r)]
  show Ideal.ofBits .f32 (lit0 (S6x3.rowMajor _)) = Ideal.ofBits .f32 (Cert.Loss.litT (Cert.Loss.St.rowMajor _))
  rw [hlit]

end Cert.ReferenceIdeal.Index

end
-- ==== Proof.RefValue.lean ====
/-
  The reference's results as the loss's totals: with finite logits every row's log-softmax is a real number, so the
  reference's square by `power` is the product the loss is written with; the stages then agree with the loss's per-row
  terms index by index, and the host's reductions are the sums over rows and classes (channels).
-/
import proofs.«430152_j8701603742268_3_alg».proof.Proof.RefIndex
import Idealize.ShloMosaic.PureOps.Ideal.Laws
import Idealize.ShloMosaic.Lib.IdealHost

noncomputable section

namespace Cert.ReferenceIdeal.RefValue

open Idealize.ShloMosaic Idealize.ShloMosaic.ValueIdx
open Cert.ReferenceIdeal Cert.ReferenceIdeal.Gen

/-- The host's pointwise operations at an index, over the extended reals. -/
private theorem hostExp_apply {s : Shape} (x : FVec Ideal s .f32) (i : s.Idx) : Host.exp x i = Ideal.exp (x i) := rfl
private theorem hostLog_apply {s : Shape} (x : FVec Ideal s .f32) (i : s.Idx) : Host.log x i = Ideal.log (x i) := rfl
private theorem hostNegf_apply {s : Shape} (x : FVec Ideal s .f32) (i : s.Idx) : Host.negf x i = -(x i) := rfl
private theorem hostPowf_apply {s : Shape} (x y : FVec Ideal s .f32) (i : s.Idx) : Host.powf x y i = Ideal.pow (x i) (y i) := rfl

/-- The shape fact that names the class coordinate inserted over a row. -/
private theorem reduces_cls : S4194304x6.Reduces [1] S4194304 := by decide

/-- Over row `r`, the index with class `k` inserted is (r, k). -/
private theorem lift_cls (r : Fin 4194304) (k : Fin 6) : reduces_cls.lift (ix1 r) k = ix2 r k := by
  funext c
  match c with
  | ⟨0, _⟩ => rfl
  | ⟨1, _⟩ => rfl

/-- A scalar laid over the rows or over the whole rectangle reads the scalar. -/
private theorem splat1 (v : FVec Ideal S_ .f32) (j : S4194304.Idx) :
    broadcastInDim S4194304 ![] bcast_S_S4194304 v j = v ix0 := broadcastInDim_scalar_apply _ v j

private theorem splat2 (v : FVec Ideal S_ .f32) (j : S4194304x6.Idx) :
    broadcastInDim S4194304x6 ![] bcast_S_S4194304x6 v j = v ix0 := broadcastInDim_scalar_apply _ v j

/-- A vector laid along the rows of a one-column rectangle reads the vector at the row. -/
private theorem col_apply (v : FVec Ideal S4194304 .f32) (r : Fin 4194304) (q : Fin 1) :
    broadcastInDim S4194304x1 ![0] bcast_S4194304_S4194304x1_0 v (ix2 r q) = v (ix1 r) := by
  unfold broadcastInDim
  congr 1
  funext a
  match a with
  | ⟨0, _⟩ => rfl

/-- A one-column rectangle laid along each row reads the column at the row. -/
private theorem rows_apply (v : FVec Ideal S4194304x1 .f32) (r : Fin 4194304) (k : Fin 6) :
    broadcastInDim S4194304x6 ![0, 1] bcast_S4194304x1_S4194304x6_0_1 v (ix2 r k) = v (ix2 r 0) := by
  unfold broadcastInDim
  congr 1
  funext a
  match a with
  | ⟨0, _⟩ => rfl
  | ⟨1, _⟩ => rfl

/-- Each row's maximum as the reference takes it is the loss's row maximum. -/
private theorem rowMaxes_apply (X : FVec Ideal S4194304x6 .f32) (r : Fin 4194304) :
    Terms.rowMaxes X (ix1 r) = Cert.Loss.rowMax (fun k => X (ix2 r k)) := by
  unfold Terms.rowMaxes
  rw [maximumf_apply, splat1, constant_apply,
    Host.reduce_eq_fold_single FloatOps.maximumf X _ reducesTo_S4194304x6_S4194304_d1 reduces_cls h_S_ (ix1 r)]
  have hf : (X ∘ reduces_cls.lift (ix1 r)) = fun k : Fin 6 => X (ix2 r k) := by
    funext k; exact congrArg X (lift_cls r k)
  rw [constant_apply, hf]
  exact max_eq_right ((Finset.le_fold_max _).2 (Or.inl le_rfl))

/-- The shifted logit at (r, k). -/
private theorem shifted_apply (X : FVec Ideal S4194304x6 .f32) (r : Fin 4194304) (k : Fin 6) :
    Terms.shifted X (ix2 r k) = X (ix2 r k) - Cert.Loss.rowMax (fun k' => X (ix2 r k')) := by
  unfold Terms.shifted
  rw [subf_apply, rows_apply, col_apply, rowMaxes_apply]

/-- The host's sum over the classes of a row. -/
private theorem sumCls_apply (Y : FVec Ideal S4194304x6 .f32) (r : Fin 4194304) :
    Host.reduceAdd Y (constant (F := Ideal) S_ .f32 0x00000000#32) reducesTo_S4194304x6_S4194304_d1 h_S_ (ix1 r)
      = ∑ k : Fin 6, Y (ix2 r k) := by
  rw [hostReduceAdd_apply, Ideal.hostReduceAdd_single reducesTo_S4194304x6_S4194304_d1 reduces_cls, constant_apply,
    Ideal.ofBits_zero_f32, zero_add]
  exact Finset.sum_congr rfl fun k _ => congrArg Y (lift_cls r k)

/-- The log-softmax at (r, k) is the loss's. -/
private theorem logSoftmax_apply (X : FVec Ideal S4194304x6 .f32) (r : Fin 4194304) (k : Fin 6) :
    Terms.logSoftmax X (ix2 r k) = Cert.Loss.lsm (fun k' => X (ix2 r k')) k := by
  unfold Terms.logSoftmax Cert.Loss.lsm
  have e := sumCls_apply (Host.exp (Terms.shifted X)) r
  have hs : (∑ k' : Fin 6, Host.exp (Terms.shifted X) (ix2 r k'))
      = ∑ k' : Fin 6, Ideal.exp (X (ix2 r k') - Cert.Loss.rowMax (fun k'' => X (ix2 r k''))) :=
    Finset.sum_congr rfl fun k' _ => by rw [hostExp_apply, shifted_apply]
  rw [subf_apply, rows_apply, shifted_apply, hostLog_apply, col_apply, e, hs]

/-! ## A row of finite logits: every quantity of its log-softmax is a real number -/

/-- The float word of -∞ is the least extended real. -/
private theorem negInf_eq_bot : Cert.Loss.negInf = ⊥ := by
  simp [Cert.Loss.negInf, Ideal.ofBits, Ideal.ieee]

/-- The float word of 1 is the real 1. -/
private theorem oneW_eq : Cert.Loss.oneW = ((1 : ℝ) : EReal) := by
  rw [EReal.coe_one]
  simp [Cert.Loss.oneW, Ideal.ofBits, Ideal.ieee, -EReal.coe_mul]; norm_num

/-- The float word of 2 is the real 2. -/
private theorem twoW_eq : Ideal.ofBits .f32 0x40000000#32 = ((2 : ℝ) : EReal) := by
  simp [Ideal.ofBits, Ideal.ieee, -EReal.coe_mul]; norm_num

/-- A finite sum of reals, taken in the extended reals, is the real sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The largest of six reals is a real. -/
private theorem rowMax_real (x : Fin 6 → EReal) (hx : ∀ k, ∃ a : ℝ, x k = (a : EReal)) :
    ∃ m : ℝ, Cert.Loss.rowMax x = (m : EReal) := by
  have htop : Cert.Loss.rowMax x ≠ ⊤ := by
    apply ne_of_lt
    unfold Cert.Loss.rowMax
    rw [Finset.fold_max_lt]
    refine ⟨by rw [negInf_eq_bot]; exact bot_lt_top, fun k _ => ?_⟩
    obtain ⟨a, ha⟩ := hx k
    rw [ha]; exact EReal.coe_lt_top a
  have hbot : Cert.Loss.rowMax x ≠ ⊥ := by
    apply ne_of_gt
    unfold Cert.Loss.rowMax
    rw [Finset.lt_fold_max]
    refine Or.inr ⟨0, Finset.mem_univ _, ?_⟩
    obtain ⟨a, ha⟩ := hx 0
    rw [ha]; exact EReal.bot_lt_coe a
  exact ⟨(Cert.Loss.rowMax x).toReal, (EReal.coe_toReal htop hbot).symm⟩

/-- The log-softmax of a row of reals is a real. -/
private theorem lsm_real (x : Fin 6 → EReal) (hx : ∀ k, ∃ a : ℝ, x k = (a : EReal)) (k : Fin 6) :
    ∃ l : ℝ, Cert.Loss.lsm x k = (l : EReal) := by
  obtain ⟨m, hm⟩ := rowMax_real x hx
  choose a ha using hx
  have hs : (∑ k' : Fin 6, Ideal.exp (x k' - Cert.Loss.rowMax x))
      = ((∑ k' : Fin 6, Real.exp (a k' - m) : ℝ) : EReal) := by
    rw [← coe_sum]
    exact Finset.sum_congr rfl fun k' _ => by rw [ha k', hm, ← EReal.coe_sub, Ideal.exp_coe]
  have hpos : 0 < ∑ k' : Fin 6, Real.exp (a k' - m) :=
    Finset.sum_pos (fun k' _ => Real.exp_pos _) Finset.univ_nonempty
  refine ⟨(a k - m) - Real.log (∑ k' : Fin 6, Real.exp (a k' - m)), ?_⟩
  unfold Cert.Loss.lsm
  rw [hs, Ideal.log_coe, if_neg (not_le.2 hpos), ha k, hm, ← EReal.coe_sub, ← EReal.coe_sub]

/-- On a real the square by `power` with the float word of 2 is the product. -/
private theorem pow_two_real (y : ℝ) :
    Ideal.pow (y : EReal) (Ideal.ofBits .f32 0x40000000#32) = (y : EReal) * (y : EReal) := by
  rw [twoW_eq, Ideal.pow_coe_coe, ← EReal.coe_mul]
  congr 1
  show y ^ (2 : ℝ) = y * y
  rw [Real.rpow_two, sq]

/-- So, on a row of reals, the reference's square of `1 - exp (log-softmax)` is the loss's product. -/
private theorem pow_focus (x : Fin 6 → EReal) (hx : ∀ k, ∃ a : ℝ, x k = (a : EReal)) (k : Fin 6) :
    Ideal.pow (Cert.Loss.oneW - Ideal.exp (Cert.Loss.lsm x k)) (Ideal.ofBits .f32 0x40000000#32)
      = (Cert.Loss.oneW - Ideal.exp (Cert.Loss.lsm x k)) * (Cert.Loss.oneW - Ideal.exp (Cert.Loss.lsm x k)) := by
  obtain ⟨l, hl⟩ := lsm_real x hx k
  rw [hl, oneW_eq, Ideal.exp_coe, ← EReal.coe_sub]
  exact pow_two_real _

/-! ## The focal terms and the squared errors, index by index -/

/-- The focal term at (r, k) is the loss's. -/
private theorem focal_apply (X : FVec Ideal S4194304x6 .f32) (L : IVec S4194304 32)
    (hX : ∀ i, ∃ x : ℝ, X i = (x : EReal)) (hL : ∀ r : Fin 4194304, (L (ix1 r)).toNat < 6)
    (r : Fin 4194304) (k : Fin 6) :
    Terms.focal X L (ix2 r k) = Cert.Loss.focalElt (fun k' => X (ix2 r k')) (L (ix1 r)) k := by
  unfold Terms.focal Cert.Loss.focalElt
  rw [mulf_apply, mulf_apply, hostNegf_apply, hostPowf_apply, subf_apply, splat2, splat2, constant_apply, constant_apply,
    hostExp_apply, logSoftmax_apply, Index.targets_apply L hL r k]
  rw [show Ideal.ofBits .f32 0x3F800000#32 = Cert.Loss.oneW from rfl,
    pow_focus (fun k' => X (ix2 r k')) (fun k' => hX (ix2 r k')) k]

/-- The squared error at (r, j) is the loss's. -/
private theorem sqErr_apply (V : FVec Ideal S4194304x3 .f32) (L : IVec S4194304 32)
    (hL : ∀ r : Fin 4194304, (L (ix1 r)).toNat < 6) (r : Fin 4194304) (j : Fin 3) :
    Terms.sqErr V L (ix2 r j)
      = Cert.Loss.vadElt Cert.Loss.vadTable (fun j' => V (ix2 r j')) (L (ix1 r)) j := by
  unfold Terms.sqErr Cert.Loss.vadElt
  rw [mulf_apply, subf_apply, Index.vadTargets_apply L hL r j]

/-! ## The host's sums -/

/-- A rank-1 index set is its coordinate's range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
private theorem sum_idx1 {n : Nat} (f : (⟨1, ![n]⟩ : Shape).Idx → EReal) : ∑ i, f i = ∑ a : Fin n, f (ix1 a) := by
  rw [← Equiv.sum_comp (idxEquiv1 (n := n)).symm f]
  rfl

/-- The host's sum of a vector over its rows. -/
private theorem sumRows_apply (Y : FVec Ideal S4194304 .f32) (i : S_.Idx) :
    Host.reduceAdd Y (constant (F := Ideal) S_ .f32 0x00000000#32) reducesTo_S4194304_S_d0 h_S_ i
      = ∑ r : Fin 4194304, Y (ix1 r) := by
  rw [hostReduceAdd_apply, Ideal.hostReduceAdd_total reducesTo_S4194304_S_d0 (fun b => b.elim0), constant_apply,
    Ideal.ofBits_zero_f32, zero_add]
  exact sum_idx1 Y

/-- The host's sum of a three-column rectangle over everything. -/
private theorem sumAll_apply (Y : FVec Ideal S4194304x3 .f32) (i : S_.Idx) :
    Host.reduceAdd Y (constant (F := Ideal) S_ .f32 0x00000000#32) reducesTo_S4194304x3_S_d0_1 h_S_ i
      = ∑ r : Fin 4194304, ∑ j : Fin 3, Y (ix2 r j) := by
  rw [hostReduceAdd_apply, Ideal.hostReduceAdd_total reducesTo_S4194304x3_S_d0_1 (fun b => b.elim0), constant_apply,
    Ideal.ofBits_zero_f32, zero_add]
  exact sum_idx2 Y

/-- The focal terms summed over classes and rows are the loss's focal total. -/
theorem focalSum_eq (X : FVec Ideal S4194304x6 .f32) (L : IVec S4194304 32)
    (hX : ∀ i, ∃ x : ℝ, X i = (x : EReal)) (hL : ∀ r : Fin 4194304, (L (ix1 r)).toNat < 6) :
    Terms.focalSum X L = fun _ => Cert.Loss.totalFocal X L := by
  funext i
  unfold Terms.focalSum Cert.Loss.totalFocal
  rw [sumRows_apply]
  exact Finset.sum_congr rfl fun r _ => by
    rw [sumCls_apply]
    exact Finset.sum_congr rfl fun k _ => focal_apply X L hX hL r k

/-- The squared errors summed over rows and channels are the loss's squared-error total. -/
theorem sqErrSum_eq (V : FVec Ideal S4194304x3 .f32) (L : IVec S4194304 32)
    (hL : ∀ r : Fin 4194304, (L (ix1 r)).toNat < 6) :
    Terms.sqErrSum V L = fun _ => Cert.Loss.totalVad Cert.Loss.vadTable V L := by
  funext i
  unfold Terms.sqErrSum Cert.Loss.totalVad
  rw [sumAll_apply]
  exact Finset.sum_congr rfl fun r _ => Finset.sum_congr rfl fun j _ => sqErr_apply V L hL r j

/-- The classification loss. -/
theorem cls_eq (X : FVec Ideal S4194304x6 .f32) (L : IVec S4194304 32)
    (hX : ∀ i, ∃ x : ℝ, X i = (x : EReal)) (hL : ∀ r : Fin 4194304, (L (ix1 r)).toNat < 6) :
    Terms.cls X L = fun _ => Cert.Loss.clsOf (Cert.Loss.totalFocal X L) := by
  funext i
  unfold Terms.cls Cert.Loss.clsOf
  rw [hostDivf_apply, constant_apply, focalSum_eq X L hX hL]

/-- The regression loss. -/
theorem vad_eq (V : FVec Ideal S4194304x3 .f32) (L : IVec S4194304 32)
    (hL : ∀ r : Fin 4194304, (L (ix1 r)).toNat < 6) :
    Terms.vad V L = fun _ => Cert.Loss.vadOf (Cert.Loss.totalVad Cert.Loss.vadTable V L) := by
  funext i
  unfold Terms.vad Cert.Loss.vadOf
  rw [hostDivf_apply, constant_apply, sqErrSum_eq V L hL]

/-- The weighted total. -/
theorem total_eq (X : FVec Ideal S4194304x6 .f32) (L : IVec S4194304 32) (V : FVec Ideal S4194304x3 .f32) (M : FVec Ideal S_ .f32)
    (hX : ∀ i, ∃ x : ℝ, X i = (x : EReal)) (hL : ∀ r : Fin 4194304, (L (ix1 r)).toNat < 6) :
    Terms.total X L V M = fun _ => Cert.Loss.totalOf (Cert.Loss.totalFocal X L) (Cert.Loss.totalVad Cert.Loss.vadTable V L) (M ix0) := by
  funext i
  unfold Terms.total Cert.Loss.totalOf
  rw [addf_apply, addf_apply, mulf_apply, mulf_apply, mulf_apply, constant_apply, constant_apply, constant_apply,
    cls_eq X L hX hL, vad_eq V L hL, eq_ix0 i]

end Cert.ReferenceIdeal.RefValue

end
-- ==== Proof.PreDecode.lean ====
/-
  What the precondition says of the inputs, read off its printed predicate: every logit is a real number, and every
  label word is below 6.
-/
import proofs.«430152_j8701603742268_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx
open Cert.Pre_finite_inputs Cert.Pre_finite_inputs.Gen

/-- A rank-0 shape has one index. -/
private instance : Subsingleton S_.Idx := ⟨fun a b => funext fun d => d.elim0⟩

/-- The word 0x7F800000 is +∞. -/
private theorem top_f32 : Ideal.ofBits .f32 0x7F800000#32 = (⊤ : EReal) := by simp [Ideal.ofBits, Ideal.ieee]

/-- A value whose absolute value max x (-x) is below +∞ is neither infinity, hence a real number. -/
private theorem real_of_abs_lt_top (x : EReal) (h : Ideal.cmp .olt (max x (-x)) ⊤ = 1#1) : ∃ r : ℝ, x = (r : EReal) := by
  have hlt : max x (-x) < ⊤ := by
    unfold Ideal.cmp at h
    simpa [StableHlo.Predicate.ofBool_eq_one_iff] using h
  induction x using EReal.rec with
  | bot => simp at hlt
  | coe r => exact ⟨r, rfl⟩
  | top => simp at hlt

/-- A word that is signed-nonnegative and signed-below 6 has value below 6. -/
private theorem toNat_lt_six (l : BitVec 32) (h0 : IntOp.cmpi .sge l 0#32 = 1#1) (h6 : IntOp.cmpi .slt l 6#32 = 1#1) :
    l.toNat < 6 := by
  unfold IntOp.cmpi at h0 h6
  rw [StableHlo.Predicate.ofBool_eq_one_iff] at h0 h6
  simp only [BitVec.sle, BitVec.slt, decide_eq_true_eq] at h0 h6
  have e0 : (0#32 : BitVec 32).toInt = 0 := by decide
  have e6 : (6#32 : BitVec 32).toInt = 6 := by decide
  rw [e0] at h0
  rw [e6] at h6
  rw [BitVec.toInt_eq_toNat_cond] at h0 h6
  have := l.isLt
  split at h0 <;> omega

/-- Under the precondition every logit is a real number. -/
theorem logits_real (X : FVec Ideal S4194304x6 .f32) (L : IVec S4194304 32) (V : FVec Ideal S4194304x3 .f32) (M : FVec Ideal S_ .f32)
    (h : Cert.Pre_finite_inputs.fn (F := Ideal) X L V M = fun _ => 1#1) :
    ∀ i, ∃ x : ℝ, X i = (x : EReal) := by
  intro i
  -- the predicate at its one index: a conjunction of four all-reductions
  have h0 := congrFun h ix0
  dsimp only [fn, fn_part1, andi] at h0
  obtain ⟨h123, -⟩ := IntOp.andi_eq_one.1 h0
  obtain ⟨h12, -⟩ := IntOp.andi_eq_one.1 h123
  obtain ⟨h1, -⟩ := IntOp.andi_eq_one.1 h12
  -- the first conjunct at element i: |X i| < +∞
  have hi := Host.reduce_andi_all _ _ _ _ _ h1 i
  dsimp only [cmpf, Host.absf, broadcastInDim, constant] at hi
  have hi' : Ideal.cmp .olt (max (X i) (-(X i))) (Ideal.ofBits .f32 0x7F800000#32) = 1#1 := hi
  rw [top_f32] at hi'
  exact real_of_abs_lt_top _ hi'

/-- Under the precondition every label word is below 6. -/
theorem labels_lt (X : FVec Ideal S4194304x6 .f32) (L : IVec S4194304 32) (V : FVec Ideal S4194304x3 .f32) (M : FVec Ideal S_ .f32)
    (h : Cert.Pre_finite_inputs.fn (F := Ideal) X L V M = fun _ => 1#1) :
    ∀ r : Fin 4194304, (L (ix1 r)).toNat < 6 := by
  intro r
  have h0 := congrFun h ix0
  dsimp only [fn, fn_part1, andi] at h0
  obtain ⟨-, h4⟩ := IntOp.andi_eq_one.1 h0
  -- the last conjunct at element r: 0 ≤ L r (signed) and L r < 6 (signed)
  have hi := Host.reduce_andi_all _ _ _ _ _ h4 (ix1 r)
  dsimp only [andi, cmpi, broadcastInDim, constantI] at hi
  obtain ⟨ha, hb⟩ := IntOp.andi_eq_one.1 hi
  exact toNat_lt_six _ ha hb

end Cert.Pre_finite_inputs.Decode

end
-- ==== Proof.lean ====
/-
  The certificate's five claims.

  Both idealized programs compute one loss of the four argument arrays: the focal classification term
  `-(1 - p)² · t · log p` summed over rows and classes and divided by the number of rows, the squared error against the
  class table's row of each label summed and divided by rows × channels, and their weighted sum with the given third loss
  (`Cert.Loss`, Proof/Spec.lean). The kernel reaches the two totals tile by tile: 512 grid points in two halves, each
  point adding its tile's totals to two accumulators, the last point of a half writing them out, the host adding the two
  halves (Proof/KPieces, KPayload, KPayloadV, KBlocks, KAccum, KArrays, KRun). Its smoothed target is
  `off + (on - off) · onehot`, which is the reference's scatter of `on` into `off` because the constant `on - off` is
  read as the exact difference of the reference's two constants. The reference reaches the totals in one pass
  (Proof/RefTerms, RefRun, RefIndex, RefValue); there the labels must name a class (the precondition's range conjunct:
  the scatter and the gather index by them) and the logits must be finite (so that the reference's square by `power`
  is a product of reals), both read off the precondition in Proof/PreDecode.
-/
import proofs.«430152_j8701603742268_3_alg».proof.Defs
import proofs.«430152_j8701603742268_3_alg».proof.Proof.Gen.Kernel
import proofs.«430152_j8701603742268_3_alg».proof.Proof.Gen.Kernel.Frame
import proofs.«430152_j8701603742268_3_alg».proof.Proof.Gen.KernelIdeal
import proofs.«430152_j8701603742268_3_alg».proof.Proof.Gen.ReferenceIdeal
import proofs.«430152_j8701603742268_3_alg».proof.Proof.Gen.Pre_finite_inputs
import proofs.«430152_j8701603742268_3_alg».proof.Proof.KRun
import proofs.«430152_j8701603742268_3_alg».proof.Proof.RefRun
import proofs.«430152_j8701603742268_3_alg».proof.Proof.RefValue
import proofs.«430152_j8701603742268_3_alg».proof.Proof.PreDecode
import Idealize.ShloMosaic.Adequacy
import Idealize.ShloMosaic.Init

noncomputable section

namespace Cert.Proof

open Idealize.ShloMosaic Idealize.SL.Sem

/-- The word-level kernel terminates without a fault and keeps its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference is a straight line of host operations: its run, the results dropped. -/
theorem frame_ri : Cert.frame_ReferenceIdeal := fun m ρ _ =>
  (θ_run Cert.ReferenceIdeal.defs _ _).mono (fun _ h c => (h c).2.2.2) (Cert.ReferenceIdeal.HandRun.run m ρ)

/-- The one rewrite of the idealization: the kernel's constant `on - off` is named at the exact difference of the
    reference's two constants, 236223195 / 2²⁸. -/
theorem preserves : Cert.preserves_Kernel_KernelIdeal :=
  IdealRules.named_const.statement Cert.KernelIdeal.κ "on_minus_off" .f32 0x3F6147AE#32 ((236223195 / 268435456 : ℝ) : EReal) rfl

/-- From memories agreeing on the arguments both programs end with the loss's three values (and the third loss handed
    through): the kernel for any arguments, the reference under the precondition's range and finiteness facts. -/
theorem algebraic : Cert.algebraic_KernelIdeal_ReferenceIdeal := by
  intro m ρ m' ρ' hpre hagree
  refine ⟨_, _, _, _, Cert.KernelIdeal.Hand.run m ρ, ?_⟩
  refine (θ_run Cert.ReferenceIdeal.defs _ _).mono (fun r h c => ?_) (Cert.ReferenceIdeal.HandRun.run m' ρ')
  obtain ⟨h44, h28, h39, ha0, ha1, ha2, ha3⟩ := h c
  obtain ⟨e0, e1, e2, e3⟩ := hagree c
  have hX := Cert.Pre_finite_inputs.Decode.logits_real _ _ _ _ (hpre c)
  have hL := Cert.Pre_finite_inputs.Decode.labels_lt _ _ _ _ (hpre c)
  refine ⟨?_, ?_, ?_, ?_, ha0, ha1, ha2, ha3⟩
  · rw [h44, e0, e1, e2, e3]
    exact Cert.ReferenceIdeal.RefValue.total_eq _ _ _ _ hX hL
  · rw [h28, e0, e1]
    exact Cert.ReferenceIdeal.RefValue.cls_eq _ _ hX hL
  · rw [h39, e2, e1]
    exact Cert.ReferenceIdeal.RefValue.vad_eq _ _ hL
  · rw [ha3, e3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
